-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S16x256x256 : Shape := ⟨3, ![16, 256, 256]⟩
abbrev S64x1 : Shape := ⟨2, ![64, 1]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_
  bcast_S_S64x1 : S_.BroadcastsInDim S64x1 (![] : Fin 0 → Fin S64x1.rank)
  reducesTo_S64x1_S_d0_1 : S64x1.ReducesTo [0, 1] S_

variable [Facts]

def fn {F : FTy → Type} [FloatOps F] (main_arg0 : FVec F S64x4096x256 .f32) (main_arg1 : FVec F S16x256x256 .f32) (main_arg2 : IVec S64x1 32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_c_2 : IVec S_ 32 := constantI S_ 32 16#32
  let main_v9 : IVec S64x1 32 := broadcastInDim S64x1 ![] bcast_S_S64x1 main_c_2
  let main_v10 : IVec S64x1 1 := cmpi .slt main_arg2 main_v9
  let main_c_3 : IVec S_ 1 := constantI S_ 1 1#1
  let main_v11 : IVec S_ 1 := (fun x v => Host.reduce IntOp.andi x v reducesTo_S64x1_S_d0_1 h_S_) main_v10 main_c_3
  let main_v12 : IVec S_ 1 := andi main_v8 main_v11
  main_v12
-- ==== Kernel.lean ====
abbrev S64x4096x256 : Shape := ⟨3, ![64, 4096, 256]⟩
abbrev S16x256x256 : Shape := ⟨3, ![16, 256, 256]⟩
abbrev S64x1 : Shape := ⟨2, ![64, 1]⟩
abbrev S64 : Shape := ⟨1, ![64]⟩
abbrev S1x4096x256 : Shape := ⟨3, ![1, 4096, 256]⟩
abbrev S1x256x256 : Shape := ⟨3, ![1, 256, 256]⟩
abbrev S1 : Shape := ⟨1, ![1]⟩
abbrev S4096x256 : Shape := ⟨2, ![4096, 256]⟩
abbrev S256x256 : Shape := ⟨2, ![256, 256]⟩

abbrev nBuf : Space → Nat
  | .hbm => 4
  | .vmem => 6
  | .smem => 1
  | _ => 0

abbrev bufTy : (tb : Table) → Fin (tcTables nBuf tb) → BufTy
  | .hbm, ⟨0, _⟩ => ⟨S64x4096x256, .f32⟩
  | .hbm, ⟨1, _⟩ => ⟨S16x256x256, .f32⟩
  | .hbm, ⟨2, _⟩ => ⟨S64x1, .i32⟩
  | .hbm, ⟨3, _⟩ => ⟨S64x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S1x256x256, .f32⟩
  | .local _ .vmem, ⟨3, _⟩ => ⟨S1x256x256, .f32⟩
  | .local _ .vmem, ⟨4, _⟩ => ⟨S1x4096x256, .f32⟩
  | .local _ .vmem, ⟨5, _⟩ => ⟨S1x4096x256, .f32⟩
  | .local _ .smem, ⟨0, _⟩ => ⟨S64, .i32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .slt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32 : BitVec 32 := 0#32
  let v2 : BitVec 1 := Scalar.cmpi .slt v1 c0_i32
  let v_true : BitVec 1 := 1#1
  let v5 : BitVec 1 := Scalar.xori v2 v_true
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x1_S64 : S64x1.ShapeCasts S64
  numel1_S1 : S1.numel = 1
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  dot_S4096x256_S256x256_S4096x256_1_1_0_0_n_n_wf : DotDims.WF S4096x256 S256x256 S4096x256 [1] [1] [0] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S64x4096x256.size a
  hwx0_0 : ∀ i : grid0.Coords, EltTy.bits .f32 = 32 ∨ (Rect.block (s := S64x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S64x4096x256.size a
  hwx0_2 : ∀ i : grid0.Coords, EltTy.bits .f32 = 32 ∨ (Rect.block (s := S64x4096x256) S1x4096x256.size (cc0_transform_2 i) (hinb0_2 i)).WholeWords (EltTy.packing .f32)

variable [Facts₀]

def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev spec0_0 : Pipeline.WinSpec sig grid0.rank :=
  Pipeline.WinSpec.ofSpec (Memref.whole main_arg0) S1x4096x256.size reads0_0 false false 2 stage0_0 sem0_0 nbuf0_0 hstage0_0

abbrev spec0_1 : Pipeline.WinSpec sig grid0.rank :=
  Pipeline.WinSpec.ofSpec (Memref.whole main_arg1) S1x256x256.size reads0_1 false false 2 stage0_1 sem0_1 nbuf0_1 hstage0_1

abbrev spec0_2 : Pipeline.WinSpec sig grid0.rank :=
  Pipeline.WinSpec.ofSpec (Memref.whole main_v1) S1x4096x256.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x256.size a ≤ S16x256x256.size a), EltTy.bits .f32 = 32 ∨ (Rect.block (s := S16x256x256) S1x256x256.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond1 (pf.atD 0 (k0_off1 i)) == 1#1) && !(k0_cond2 (pf.atD 0 (k0_off1 i)) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S64x4096x256 : Shape := ⟨3, ![64, 4096, 256]⟩
abbrev S16x256x256 : Shape := ⟨3, ![16, 256, 256]⟩
abbrev S64x1 : Shape := ⟨2, ![64, 1]⟩
abbrev S64 : Shape := ⟨1, ![64]⟩
abbrev S_ : Shape := ⟨0, ![]⟩
abbrev S64x256x256 : Shape := ⟨3, ![64, 256, 256]⟩
abbrev S64x1x1 : Shape := ⟨3, ![64, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S16x256x256, .f32⟩
  | .hbm, ⟨2, _⟩ => ⟨S64x1, .i32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S64x1, .i32⟩
  | .hbm, ⟨19, _⟩ => ⟨S64x256x256, .f32⟩
  | .hbm, ⟨20, _⟩ => ⟨S64x4096x256, .f32⟩
  | .hbm, ⟨21, _⟩ => ⟨S64x1x1, .i1⟩
  | .hbm, ⟨22, _⟩ => ⟨S64x4096x256, .i1⟩
  | .hbm, ⟨23, _⟩ => ⟨S64x4096x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_v0 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S64_S64x1x1_0 : S64.BroadcastsInDim S64x1x1 (![0] : Fin 1 → Fin S64x1x1.rank)
  bcast_S64x1x1_S64x4096x256_0_1_2 : S64x1x1.BroadcastsInDim S64x4096x256 (![0, 1, 2] : Fin 3 → Fin S64x4096x256.rank)
  gather_S16x256x256_S64x1_S64x256x256_12_0_n_n_0_1_1256256_wf : GatherDims.WF S16x256x256 S64x1 S64x256x256 [1, 2] [0] [] [0] [] 1 ![1, 256, 256]
  dot_S64x4096x256_S64x256x256_S64x4096x256_2_2_1_1_0_0_wf : DotDims.WF S64x4096x256 S64x256x256 S64x4096x256 [2] [2] [1] [1] [0] [0]

variable [Facts₀]

def gather_S16x256x256_S64x1_S64x256x256_12_0_n_n_0_1_1256256 : GatherDims S16x256x256 S64x1 S64x256x256 where
  offsetDims := [1, 2]
  collapsedSliceDims := [0]
  operandBatchingDims := []
  startIndicesBatchingDims := []
  startIndexMap := [0]
  indexVectorDim := 1
  sliceSizes := ![1, 256, 256]
  wf := gather_S16x256x256_S64x1_S64x256x256_12_0_n_n_0_1_1256256_wf
def dot_S64x4096x256_S64x256x256_S64x4096x256_2_2_1_1_0_0 : DotDims S64x4096x256 S64x256x256 S64x4096x256 where
  lhsContracting := [2]
  rhsContracting := [2]
  lhsNonContracting := [1]
  rhsNonContracting := [1]
  lhsBatch := [0]
  rhsBatch := [0]
  wf := dot_S64x4096x256_S64x256x256_S64x4096x256_2_2_1_1_0_0_wf

class Facts : Prop extends Facts₀ where

variable [Facts]
-- ==== Proof.PreIds.lean ====
import proofs.«426945_j5952824672291_2_alg».proof.Pre_finite_inputs
import proofs.«426945_j5952824672291_2_alg».proof.Proof.Gen.Pre_finite_inputs
import Idealize.ShloMosaic.Lib.ReduceAll
import Idealize.ShloMosaic.Lib.ValueIdx

/-!
  The precondition read back at the sample ids.

  The precondition is the conjunction (a bitwise `and` of one-bit words) of three `all`-reductions: the two float
  inputs finite, and every sample id below 16 as a signed 32-bit word. When the whole conjunction is the word 1, its
  last conjunct is 1; an `and`-reduction over every axis that is 1 had a 1 at every element; and the element at
  sample `b` is the signed comparison of the id with the broadcast constant 16, which is 1 exactly when the id,
  read signed, is below 16. The float conjuncts are never opened, so the statement holds for any float instance.
-/

noncomputable section

namespace Cert.Pre_finite_inputs.Ids

open Cert.Pre_finite_inputs Idealize.ShloMosaic Idealize.ShloMosaic.ValueIdx

/-- The rank-0 shape has exactly one index (there is no axis to give a coordinate on). -/
theorem scalar_idx_subsingleton : Subsingleton S_.Idx := ⟨fun _ _ => funext fun d => d.elim0⟩

/-- The scalar constant 16 broadcast over the [64 × 1] ids reads 16 at every sample, and 16 as a signed word is 16. -/
theorem bcast16_toInt (hb : S_.BroadcastsInDim S64x1 (![] : Fin 0 → Fin S64x1.rank)) (j : S64x1.Idx) :
    (broadcastInDim S64x1 ![] hb (constantI S_ 32 16#32) j).toInt = 16 := by
  show (16#32 : BitVec 32).toInt = 16
  decide

theorem ids_lt_of_pre {F : FTy → Type} [FloatOps F] (a0 : FVec F S64x4096x256 .f32) (a1 : FVec F S16x256x256 .f32) (a2 : IVec S64x1 32)
    (h : Cert.Pre_finite_inputs.fn (F := F) a0 a1 a2 = fun _ => 1#1) :
    ∀ b : Fin 64, (a2 (ix2 b (0 : Fin 1))).toInt < 16 := by
  intro b
  -- the predicate at its one index, its chain of operations in view
  have h0 := congrFun h ix0
  dsimp only [fn] at h0
  -- the outer conjunction: keep its last conjunct, the `all` over the ids
  have hall := (IntOp.andi_eq_one.1 h0).2
  -- an `and`-reduction over both axes that is 1 has a 1 at sample b
  haveI : Subsingleton S_.Idx := scalar_idx_subsingleton
  have hb := Host.reduce_andi_all _ _ _ _ _ hall (ix2 b (0 : Fin 1))
  -- that element is the signed comparison of the id with the broadcast 16
  have hlt := IntOp.cmpi_slt.1 hb
  rw [bcast16_toInt] at hlt
  exact hlt

end Cert.Pre_finite_inputs.Ids

end
-- ==== Proof.BitsKit.lean ====
/-
  The launch side of the routing kernel's frame: what the region finds when it is entered, the one prefetched table
  (the ids, one word per sample), the pipeline at that table's contents, each window's block at a grid point, and
  how the frame claim's post is read off a frame run.

  The grid has one point per sample b. Window 0 stages the sample x[b], window 2 the result block out[b], both at
  block index (b, 0, 0). Window 1 stages ONE of the sixteen matrices: its block index is (max(id b, 0), 0, 0), a
  function of the table's word at b, so the pipeline is well formed only for tables whose every word is below 16
  (the side condition `Ok`). The result block is written back at every point, whatever the body stored there.
-/
import proofs.«426945_j5952824672291_2_alg».proof.Proof.Gen.Kernel.Launch
import proofs.«426945_j5952824672291_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch memory after the one host line (the ids' column
    reshaped to a vector, the table). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that line, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshape writes the table only: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The table of ids -/

/-- The table's contents when the region is entered (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The pipeline's side condition of the table: the matrix window's block lies inside the sixteen matrices at every
    point. -/
abbrev Ok : Prop := ok0 (F := F) (tbl m)

/-- The table as admissible contents, and the pipeline at them. -/
abbrev adm (hO : Ok m) : (pcfg0 (F := F)).Adm := ⟨tbl m, hO⟩
abbrev cfgM (hO : Ok m) : Pipeline.Cfg sig Λ₀ := cfg0 (adm m hO)

/-- The table as the body is handed it: its whole buffer as a memref. -/
abbrev tbM0_0 : Memref sig .tc .smem S64 .i32 := Memref.whole main_v0
abbrev htbM0_0 : tbM0_0.IsWhole := Memref.isWhole_whole _

/-- The table memref's buffer on core c, held by the body at half the full share (the pipeline keeps the other
    half: the body only reads it). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half the region hands the body. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window w's block at point t, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, fetched there or not, when the body leaves the
    block in place: unfetched, the block index has not moved. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result window is written back at every point, at any contents of the table (its index map reads none). -/
theorem flush0_2 (a : (pcfg0 (F := F)).Adm) : ∀ t : Fin (cfg0 a).N, ((cfg0 a).win 2).flush t = true :=
  (by decide +kernel : ∀ t : Fin grid0.N, Pipeline.Window.flushOf grid0 true cc0_transform_2 t = true)

/-! ## The body as the pipeline calls it -/

/-- Each window's current staging memref at point t, and its wholeness. -/
abbrev ms0_0 (hO : Ok m) (t : Fin (cfgM m hO).N) : Memref sig .tc .vmem S1x4096x256 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)

/-- The kernel body at point t, on what the pipeline calls it with. -/
abbrev bodyAt0 (a : (pcfg0 (F := F)).Adm) (t : Fin (cfg0 a).N) : Prog (TpuEff nD τ sig (Elt F) Λ₀ .tc) PUnit :=
  cc0__routing_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## The frame claim's post from a frame run's -/

/-- For any proof data whose arrays are the region-entry contents, a frame run's post read at the three argument
    arrays — the two staged inputs unchanged by the pipeline, the ids' column bypassing it — is the frame claim's. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c)⟩) h

end Cert.Kernel.Frame

end
-- ==== Proof.BitsRun.lean ====
/-
  The kernel body run whole, once per branch of the id's sign, on any whole staging memrefs: the sample's block and
  the matrix's block held at their contents, the result's staging buffer at anything, the table of ids read-only.
  The body loads the id of its sample from the table; a negative id takes the first conditional (the sample copied
  to the result block) and skips the second, any other id skips the first and takes the second (the product).
  Each run ends with the input buffers as they were and the result buffer with ONE whole-block store written: the
  list of pieces the run leaves is its witness.
-/
import proofs.«426945_j5952824672291_2_alg».proof.Proof.BitsKit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word the body loads: the table's entry at the point's sample. -/
abbrev idWord (c : Dev nD) (i : grid0.Coords) (xt0 : TbBuf0 (F := F) c tbM0_0) : BitVec 32 :=
  (tbM0_0.view.readAt (Elt F) (Rect.unit (s := S64) (k0_off1 i) S1.size (k0_off1_inb i)).toLoadRect xt0 (Shape.Idx.first (numel1_S1.symm ▸ Nat.one_pos)))

set_option maxHeartbeats 1000000 in
/-- A NEGATIVE id: the first conditional taken, the second skipped. The result buffer ends with the sample's block stored whole. -/
noncomputable def kernelRun0_A (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : k0_cond1 (idWord c i xt0) = 1#1) (hc2 : ¬ k0_cond2 (idWord c i xt0) = 1#1) :
    { L2 : List (View.Piece (Elt F) S1x4096x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ tbPt0 c tbM0_0 xt0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ tbPt0 c tbM0_0 xt0) -∗ K ⟨⟩))
          ⊢ wp frame (wpE (defs₀ (F := F)) Variants.none c none) E (cc0__routing_kernel i tbM0_0 htbM0_0 arg2 harg2 arg3 harg3 arg4 harg4) K } := by
  refine ⟨?_, fun E K => ?run⟩
  case run =>
    simp only [cc0__routing_kernel_eq_skeleton]; unfold cc0__routing_kernel_skel
    unfold owns
    iintro ⟨⟨%f0, %hf0, H0⟩, ⟨%f1, %hf1, H1⟩, ⟨%d2, %f2, -, H2⟩, HT0, Hk⟩
    obtain rfl := harg2.eq_unread hf0; obtain rfl := harg3.eq_unread hf1
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HT0

set_option maxHeartbeats 1000000 in
/-- An id that is NOT negative: the first conditional skipped, the second taken. The result buffer ends with the product stored whole. -/
noncomputable def kernelRun0_B (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : ¬ k0_cond1 (idWord c i xt0) = 1#1) (hc2 : k0_cond2 (idWord c i xt0) = 1#1) :
    { L2 : List (View.Piece (Elt F) S1x4096x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ tbPt0 c tbM0_0 xt0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ tbPt0 c tbM0_0 xt0) -∗ K ⟨⟩))
          ⊢ wp frame (wpE (defs₀ (F := F)) Variants.none c none) E (cc0__routing_kernel i tbM0_0 htbM0_0 arg2 harg2 arg3 harg3 arg4 harg4) K } := by
  refine ⟨?_, fun E K => ?run⟩
  case run =>
    simp only [cc0__routing_kernel_eq_skeleton]; unfold cc0__routing_kernel_skel
    unfold owns
    iintro ⟨⟨%f0, %hf0, H0⟩, ⟨%f1, %hf1, H1⟩, ⟨%d2, %f2, -, H2⟩, HT0, Hk⟩
    obtain rfl := harg2.eq_unread hf0; obtain rfl := harg3.eq_unread hf1
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HT0

end Cert.Kernel.Frame

end
-- ==== Proof.BitsCases.lean ====
/-
  The two conditionals of the body test one bit: whether the sample's id, read as a signed integer, is negative.
  The first is taken exactly when it is, the second exactly when it is not; so at every point exactly one of them
  runs. The matrix window's block index is the id with negative values sent to 0.
-/
import proofs.«426945_j5952824672291_2_alg».proof.Proof.Gen.Kernel

noncomputable section

namespace Cert.Kernel.Frame

open Cert.Kernel Idealize.ShloMosaic

theorem slt_zero_iff (v : BitVec 32) : v.slt 0#32 = true ↔ v.toInt < 0 := by
  simp [BitVec.slt]

/-- The first conditional's condition is the id's sign. -/
theorem cond1_eq (v : BitVec 32) : k0_cond1 v = BitVec.ofBool (v.slt 0#32) := by
  unfold k0_cond1; simp only [Scalar.cmpi, Scalar.extui, IntOp.cmpi]; cases v.slt 0#32 <;> decide

/-- The second's is its negation. -/
theorem cond2_eq (v : BitVec 32) : k0_cond2 v = BitVec.ofBool (!(v.slt 0#32)) := by
  unfold k0_cond2; simp only [Scalar.cmpi, Scalar.extui, Scalar.xori, IntOp.cmpi, IntOp.xori]; cases v.slt 0#32 <;> decide

theorem cond1_iff (v : BitVec 32) : k0_cond1 v = 1#1 ↔ v.toInt < 0 := by
  rw [cond1_eq, ← slt_zero_iff]; cases v.slt 0#32 <;> decide

theorem cond2_iff (v : BitVec 32) : k0_cond2 v = 1#1 ↔ ¬ v.toInt < 0 := by
  rw [cond2_eq, ← slt_zero_iff]; cases v.slt 0#32 <;> decide

/-- A negative id: the first conditional runs and the second does not. -/
theorem conds_of_neg {v : BitVec 32} (h : v.toInt < 0) : k0_cond1 v = 1#1 ∧ ¬ k0_cond2 v = 1#1 :=
  ⟨(cond1_iff v).mpr h, fun h2 => (cond2_iff v).mp h2 h⟩

/-- Any other id: the first does not run and the second does. -/
theorem conds_of_nonneg {v : BitVec 32} (h : ¬ v.toInt < 0) : ¬ k0_cond1 v = 1#1 ∧ k0_cond2 v = 1#1 :=
  ⟨fun h1 => h ((cond1_iff v).mp h1), (cond2_iff v).mpr h⟩

/-- The id with negative values sent to 0, as a natural number. -/
theorem maxsi_zero_toNat (v : BitVec 32) : (Scalar.maxsi v 0#32).toNat = (max v.toInt 0).toNat := by
  unfold Scalar.maxsi IntOp.maxsi
  have hz : (0#32 : BitVec 32).toInt = 0 := by decide
  by_cases h : (0#32 : BitVec 32).slt v = true
  · rw [if_pos h]
    have h' : 0 < v.toInt := by simpa [BitVec.slt, hz] using h
    have := BitVec.toInt_eq_toNat_cond v
    split at this <;> omega
  · rw [if_neg h]
    have h' : ¬ 0 < v.toInt := by simpa [BitVec.slt, hz] using h
    simp only [BitVec.toNat_ofNat, Nat.zero_mod]
    omega

end Cert.Kernel.Frame

end
-- ==== Proof.BitsFrame.lean ====
/-
  The routing kernel's frame: the proof data of its one pipeline, the body obligation at a generic point, the launch
  and the frame claim, for every table of ids whose words are all below 16.

  After the body at the point of sample b the two input windows' buffers hold their blocks, untouched, and the
  result window's buffer holds what the one whole-block store of the branch taken left: the branch is decided by
  the sign of the id the body loads from the table. The result window is written back at every point, so nothing
  depends on where the printed program calls it idle.
-/
import proofs.«426945_j5952824672291_2_alg».proof.Proof.BitsRun
import proofs.«426945_j5952824672291_2_alg».proof.Proof.BitsCases

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result's staging buffer holds after each branch -/

/-- The one store of the branch covers the whole block. -/
theorem cover0_A_2 (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : k0_cond1 (idWord c i xt0) = 1#1) (hc2 : ¬ k0_cond2 (idWord c i xt0) = 1#1) (y : S1x4096x256.Idx) :
    ∃ pc ∈ (kernelRun0_A c i arg2 harg2 arg3 harg3 arg4 harg4 x0 x1 xt0 hc1 hc2).1, y ∈ pc.1.set :=
  View.cover_of_wholeMem (kernelRun0_A c i arg2 harg2 arg3 harg3 arg4 harg4 x0 x1 xt0 hc1 hc2).1 (by sl_whole_mem) y
theorem cover0_B_2 (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : ¬ k0_cond1 (idWord c i xt0) = 1#1) (hc2 : k0_cond2 (idWord c i xt0) = 1#1) (y : S1x4096x256.Idx) :
    ∃ pc ∈ (kernelRun0_B c i arg2 harg2 arg3 harg3 arg4 harg4 x0 x1 xt0 hc1 hc2).1, y ∈ pc.1.set :=
  View.cover_of_wholeMem (kernelRun0_B c i arg2 harg2 arg3 harg3 arg4 harg4 x0 x1 xt0 hc1 hc2).1 (by sl_whole_mem) y

/-- One staging buffer of the result window, through which its contents are stated (the choice does not matter). -/
abbrev VO0_2 : View sig .tc .vmem S1x4096x256 .f32 := (Memref.whole cc0_stg2_0 : Memref sig .tc .vmem S1x4096x256 .f32).view

/-- What each run leaves in the result's staging buffer: its pieces read back. -/
def out0_A_2 (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : k0_cond1 (idWord c i xt0) = 1#1) (hc2 : ¬ k0_cond2 (idWord c i xt0) = 1#1) : Vec F S1x4096x256 .f32 :=
  VO0_2.read (Elt F) (VO0_2.writes (Elt F) VO0_2.junk (kernelRun0_A c i arg2 harg2 arg3 harg3 arg4 harg4 x0 x1 xt0 hc1 hc2).1)
def out0_B_2 (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : ¬ k0_cond1 (idWord c i xt0) = 1#1) (hc2 : k0_cond2 (idWord c i xt0) = 1#1) : Vec F S1x4096x256 .f32 :=
  VO0_2.read (Elt F) (VO0_2.writes (Elt F) VO0_2.junk (kernelRun0_B c i arg2 harg2 arg3 harg3 arg4 harg4 x0 x1 xt0 hc1 hc2).1)

/-! ## Point by point -/

/-- The id the body loads at point t: the table's word at the point's sample. -/
abbrev idAt (hO : Ok m) (c : Dev nD) (t : Fin (cfgM m hO).N) : BitVec 32 := idWord c (grid0.coords t) (tbl m 0)

/-- What the result's staging buffer holds after the body at point t: the branch's contents, by the id's sign. -/
def outsAt0 (hO : Ok m) (c : Dev nD) (t : Fin (cfgM m hO).N) : Vec F S1x4096x256 .f32 :=
  if hs : (idAt m hO c t).toInt < 0 then
    out0_A_2 c (grid0.coords t) (ms0_0 m hO t) (hs0_0 m hO t) (ms0_1 m hO t) (hs0_1 m hO t) (ms0_2 m hO t) (hs0_2 m hO t)
      (iblk m hO c 0 t) (iblk m hO c 1 t) (tbl m 0) (conds_of_neg hs).1 (conds_of_neg hs).2
  else
    out0_B_2 c (grid0.coords t) (ms0_0 m hO t) (hs0_0 m hO t) (ms0_1 m hO t) (hs0_1 m hO t) (ms0_2 m hO t) (hs0_2 m hO t)
      (iblk m hO c 0 t) (iblk m hO c 1 t) (tbl m 0) (conds_of_nonneg hs).1 (conds_of_nonneg hs).2

/-! ## The pipeline's proof data -/

/-- The arrays as the region finds them; after the body each input's buffer at its block and the result's at
    `outsAt0`; the invariant the scoped rest with the table's half; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outsAt0 m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outsAt0 m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- Exactly one conditional stores at every point: the result window is idle nowhere. -/
theorem not_both_skipped (v : BitVec 32) : (!(k0_cond1 v == 1#1) && !(k0_cond2 v == 1#1)) = false := by
  rw [cond1_eq, cond2_eq]
  cases v.slt 0#32 <;> decide

theorem idle2_false (hO : Ok m) (t : Fin (cfgM m hO).N) : (cfgM m hO).idle 2 ((cfgM m hO).grid.coords t) = false :=
  not_both_skipped _

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: the inputs' buffers hold their blocks, so the run of the id's branch applies; the
    invariant passes through, the table read and handed back. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outsAt0
  by_cases hs : (idAt m hO c t).toInt < 0
  ·
    rw [dif_pos hs]
    unfold out0_A_2
    iintro ⟨⟨HΦ, HT0⟩, Ho, ⟨%d0, H0⟩, ⟨%d1, H1⟩, ⟨%d2, H2⟩⟩
    iapply ((kernelRun0_A c (grid0.coords t) _ _ _ _ _ _ (iblk m hO c 0 t) (iblk m hO c 1 t) (tbl m 0) (conds_of_neg hs).1 (conds_of_neg hs).2).2 Set.univ _)
    isplitl [H0]; · iexact H0
    isplitl [H1]; · iexact H1
    isplitl [H2]; · iexists _; iexact H2
    isplitl [HT0]; · iexact HT0
    iintro ⟨H0, H1, ⟨%e2, H2⟩, HT0⟩
    isplitl [HΦ HT0]
    · isplitl [HΦ]
      · iexact HΦ
      iexact HT0
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  ·
    rw [dif_neg hs]
    unfold out0_B_2
    iintro ⟨⟨HΦ, HT0⟩, Ho, ⟨%d0, H0⟩, ⟨%d1, H1⟩, ⟨%d2, H2⟩⟩
    iapply ((kernelRun0_B c (grid0.coords t) _ _ _ _ _ _ (iblk m hO c 0 t) (iblk m hO c 1 t) (tbl m 0) (conds_of_nonneg hs).1 (conds_of_nonneg hs).2).2 Set.univ _)
    isplitl [H0]; · iexact H0
    isplitl [H1]; · iexact H1
    isplitl [H2]; · iexists _; iexact H2
    isplitl [HT0]; · iexact HT0
    iintro ⟨H0, H1, ⟨%e2, H2⟩, HT0⟩
    isplitl [HΦ HT0]
    · isplitl [HΦ]
      · iexact HΦ
      iexact HT0
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The library's body obligation, at every point. -/
theorem body_obligation (hO : Ok m) (c : Dev nD) : BodyObligation (dats (F := F) m hO 0 c) (defs₀ (F := F)) Variants.none () Set.univ := fun t => by
  rw [bigSep_W0, bigSep_W0, idle2_false]
  exact sound_body m hO c t

/-! ## The run and the frame -/

set_option backward.isDefEq.respectTransparency.types false in
/-- Every weakly fair execution of @main terminates, and every final state has every array of the pipeline at what
    the library computes from the proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame claim at any float instance, for every table of ids whose matrix blocks lie inside the matrices. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

end Cert.Kernel.Frame

end
-- ==== Proof.BitsOk.lean ====
/-
  The table of ids and the pipeline's side condition.

  The table is the ids' column read as a vector, so its word at sample b is the id of sample b. The index map of the
  matrix window and the body read the same word at the point of sample b. When every id, read as a signed integer, is
  below 16, the matrix window's block index max(id, 0) is below 16 at every point: its block lies inside the sixteen
  matrices, which is the side condition the pipeline asks of the table.
-/
import proofs.«426945_j5952824672291_2_alg».proof.Proof.BitsRun
import proofs.«426945_j5952824672291_2_alg».proof.Proof.BitsCases
import Idealize.ShloMosaic.Lib.StableHlo.Run
import Idealize.ShloMosaic.Lib.Pipeline.Value
import Idealize.ShloMosaic.Lib.ValueIdx

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The sample a grid point stands for. -/
abbrev smp (i : grid0.Coords) : Fin 64 := ⟨(i 0).val, (i 0).isLt⟩

/-- The ids' column as launched, on the one device. -/
abbrev ids : S64x1.Idx → Elt F .i32 := m (((0 : Dev nD) : Thread nD τ).loc main_arg2)

/-- The table is the ids' column reshaped to a vector. -/
theorem tbl_eq : (tbl m 0 : S64.Idx → Elt F .i32) = shapeCast S64 (m (((0 : Dev nD) : Thread nD τ).loc main_arg2)) shapeCasts_S64x1_S64 := by
  unfold tbl
  show V m 0 main_v0 = _
  dsimp only [V, hostOps0]
  after_results
  rfl

/-- Its word at sample b is the id of sample b. -/
theorem tbl_apply (b : Fin 64) : (tbl m 0 : S64.Idx → Elt F .i32) (ix1 b) = ids m (ix2 b (0 : Fin 1)) := by
  rw [tbl_eq]
  refine shapeCast_apply _ _ _ _ ?_
  show (S64x1.rowMajor (ix2 b (0 : Fin 1))).val = (S64.rowMajor (ix1 b)).val
  rewrite [Shape.rowMajor_val_two, Shape.rowMajor_val_one]
  show b.val * 1 + 0 = b.val
  omega

/-- The word the body loads at a point is the table's at the point's sample. -/
theorem idWord_eq (c : Dev nD) (i : grid0.Coords) (xt0 : TbBuf0 (F := F) c tbM0_0) :
    idWord c i xt0 = (xt0 : S64.Idx → Elt F .i32) (ix1 (smp i)) := by
  unfold idWord
  rw [View.readAt_apply, View.read_apply, cast_eq]
  refine congrArg xt0 ?_
  funext a; apply Fin.ext
  match a with
  | ⟨0, _⟩ =>
    have hk : k0_off1 i 0 = (i 0).val := by rw [k0_off1_eq]; rfl
    show k0_off1 i 0 + 1 * 0 = (i 0).val
    omega

/-- So is the word the matrix window's index map reads there. -/
theorem at_eq (pf : pre0.Contents (Elt F)) (i : grid0.Coords) :
    pf.at 0 (Rect.unit (s := S64) ![(Scalar.indexCast (BitVec.ofNat 32 (i 0).val)).toNat] S1.size (k0_off1_inb i)) numel1_S1
      = (pf 0 : S64.Idx → Elt F .i32) (ix1 (smp i)) := by
  show pf 0 _ = _
  refine congrArg (pf 0) ?_
  funext a; apply Fin.ext
  match a with
  | ⟨0, _⟩ =>
    have hi : (i 0).val < 64 := (i 0).isLt
    have hk : (Scalar.indexCast (BitVec.ofNat 32 (i 0).val)).toNat = (i 0).val := by
      unfold Scalar.indexCast; rw [BitVec.toNat_ofNat]; omega
    show (Scalar.indexCast (BitVec.ofNat 32 (i 0).val)).toNat + 1 * 0 = (i 0).val
    omega

/-- The id of sample b, as launched. -/
def sampleId (b : Fin 64) : BitVec 32 := ids m (ix2 b (0 : Fin 1))

/-- The table's word at sample b. -/
def tblId (b : Fin 64) : BitVec 32 := (tbl m 0 : S64.Idx → Elt F .i32) (ix1 b)

theorem tblId_eq (b : Fin 64) : tblId m b = sampleId m b := tbl_apply m b

/-- The body loads the id of the point's sample. -/
theorem idWord_tbl (c : Dev nD) (i : grid0.Coords) : idWord c i (tbl m 0) = sampleId m (smp i) :=
  (idWord_eq c i (tbl m 0)).trans (tblId_eq m (smp i))

/-- The matrix window's block index at a point: the id there with negative values sent to 0; nothing on the other
    two axes. -/
theorem transform_1_eq (i : grid0.Coords) :
    cc0_transform_1 k0_off1_inb numel1_S1 (tbl m) i = ![(Scalar.maxsi (sampleId m (smp i)) 0#32).toNat, 0, 0] := by
  unfold cc0_transform_1
  exact congrArg (fun v : BitVec 32 => (![(Scalar.maxsi v 0#32).toNat, 0, 0] : Fin 3 → Nat))
    ((at_eq (tbl m) i).trans (tblId_eq m (smp i)))

/-- Ids below 16 make every matrix block lie inside the sixteen matrices. -/
theorem ok_of_ids (hlt : ∀ b : Fin 64, (sampleId m b).toInt < 16) : Ok m := by
  intro i
  have hb := hlt (smp i)
  have hn : (Scalar.maxsi (sampleId m (smp i)) 0#32).toNat < 16 := by
    rw [maxsi_zero_toNat]; omega
  refine ⟨fun a => ?_, .inl rfl⟩
  rw [transform_1_eq]
  match a with
  | ⟨0, _⟩ => show ((Scalar.maxsi (sampleId m (smp i)) 0#32).toNat + 1) * 1 ≤ 16; omega
  | ⟨1, _⟩ => show (0 + 1) * 256 ≤ 256; omega
  | ⟨2, _⟩ => show (0 + 1) * 256 ≤ 256; omega

end Cert.Kernel.Frame

end
-- ==== Proof.IdealKit.lean ====
/-
  The launch side of the routing kernel's frame: what the region finds when it is entered, the one prefetched table
  (the ids, one word per sample), the pipeline at that table's contents, each window's block at a grid point, and
  how the frame claim's post is read off a frame run.

  The grid has one point per sample b. Window 0 stages the sample x[b], window 2 the result block out[b], both at
  block index (b, 0, 0). Window 1 stages ONE of the sixteen matrices: its block index is (max(id b, 0), 0, 0), a
  function of the table's word at b, so the pipeline is well formed only for tables whose every word is below 16
  (the side condition `Ok`). The result block is written back at every point, whatever the body stored there.
-/
import proofs.«426945_j5952824672291_2_alg».proof.Proof.Gen.KernelIdeal.Launch
import proofs.«426945_j5952824672291_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: the launch memory after the one host line (the ids' column
    reshaped to a vector, the table). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that line, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshape writes the table only: each argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The table of ids -/

/-- The table's contents when the region is entered (there is one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- The pipeline's side condition of the table: the matrix window's block lies inside the sixteen matrices at every
    point. -/
abbrev Ok : Prop := ok0 (F := F) (tbl m)

/-- The table as admissible contents, and the pipeline at them. -/
abbrev adm (hO : Ok m) : (pcfg0 (F := F)).Adm := ⟨tbl m, hO⟩
abbrev cfgM (hO : Ok m) : Pipeline.Cfg sig Λ₀ := cfg0 (adm m hO)

/-- The table as the body is handed it: its whole buffer as a memref. -/
abbrev tbM0_0 : Memref sig .tc .smem S64 .i32 := Memref.whole main_v0
abbrev htbM0_0 : tbM0_0.IsWhole := Memref.isWhole_whole _

/-- The table memref's buffer on core c, held by the body at half the full share (the pipeline keeps the other
    half: the body only reads it). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half the region hands the body. -/
theorem PhiT0_eq (c : Dev nD) : (Pipeline.ΦT pre0 (tbl m) c : sProp 𝕄) = tbPt0 c tbM0_0 (tbl m 0) := by
  unfold Pipeline.ΦT Pipeline.prefHeld
  rw [show (Finset.univ : Finset (Fin 1)) = {(0 : Fin 1)} from by decide, bigSep_singleton]
  rfl

/-! ## The windows' blocks -/

/-- Window w's block at point t, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, fetched there or not, when the body leaves the
    block in place: unfetched, the block index has not moved. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The result window is written back at every point, at any contents of the table (its index map reads none). -/
theorem flush0_2 (a : (pcfg0 (F := F)).Adm) : ∀ t : Fin (cfg0 a).N, ((cfg0 a).win 2).flush t = true :=
  (by decide +kernel : ∀ t : Fin grid0.N, Pipeline.Window.flushOf grid0 true cc0_transform_2 t = true)

/-! ## The body as the pipeline calls it -/

/-- Each window's current staging memref at point t, and its wholeness. -/
abbrev ms0_0 (hO : Ok m) (t : Fin (cfgM m hO).N) : Memref sig .tc .vmem S1x4096x256 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)

/-- The kernel body at point t, on what the pipeline calls it with. -/
abbrev bodyAt0 (a : (pcfg0 (F := F)).Adm) (t : Fin (cfg0 a).N) : Prog (TpuEff nD τ sig (Elt F) Λ₀ .tc) PUnit :=
  cc0__routing_kernel (grid0.coords t) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

/-! ## The frame claim's post from a frame run's -/

/-- For any proof data whose arrays are the region-entry contents, a frame run's post read at the three argument
    arrays — the two staged inputs unchanged by the pipeline, the ids' column bypassing it — is the frame claim's. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c)⟩) h

end Cert.KernelIdeal.Frame

end
-- ==== Proof.IdealRun.lean ====
/-
  The kernel body run whole, once per branch of the id's sign, on any whole staging memrefs: the sample's block and
  the matrix's block held at their contents, the result's staging buffer at anything, the table of ids read-only.
  The body loads the id of its sample from the table; a negative id takes the first conditional (the sample copied
  to the result block) and skips the second, any other id skips the first and takes the second (the product).
  Each run ends with the input buffers as they were and the result buffer with ONE whole-block store written: the
  list of pieces the run leaves is its witness.
-/
import proofs.«426945_j5952824672291_2_alg».proof.Proof.IdealKit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word the body loads: the table's entry at the point's sample. -/
abbrev idWord (c : Dev nD) (i : grid0.Coords) (xt0 : TbBuf0 (F := F) c tbM0_0) : BitVec 32 :=
  (tbM0_0.view.readAt (Elt F) (Rect.unit (s := S64) (k0_off1 i) S1.size (k0_off1_inb i)).toLoadRect xt0 (Shape.Idx.first (numel1_S1.symm ▸ Nat.one_pos)))

set_option maxHeartbeats 1000000 in
/-- A NEGATIVE id: the first conditional taken, the second skipped. The result buffer ends with the sample's block stored whole. -/
noncomputable def kernelRun0_A (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : k0_cond1 (idWord c i xt0) = 1#1) (hc2 : ¬ k0_cond2 (idWord c i xt0) = 1#1) :
    { L2 : List (View.Piece (Elt F) S1x4096x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ tbPt0 c tbM0_0 xt0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ tbPt0 c tbM0_0 xt0) -∗ K ⟨⟩))
          ⊢ wp frame (wpE (defs₀ (F := F)) Variants.none c none) E (cc0__routing_kernel i tbM0_0 htbM0_0 arg2 harg2 arg3 harg3 arg4 harg4) K } := by
  refine ⟨?_, fun E K => ?run⟩
  case run =>
    simp only [cc0__routing_kernel_eq_skeleton]; unfold cc0__routing_kernel_skel
    unfold owns
    iintro ⟨⟨%f0, %hf0, H0⟩, ⟨%f1, %hf1, H1⟩, ⟨%d2, %f2, -, H2⟩, HT0, Hk⟩
    obtain rfl := harg2.eq_unread hf0; obtain rfl := harg3.eq_unread hf1
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HT0

set_option maxHeartbeats 1000000 in
/-- An id that is NOT negative: the first conditional skipped, the second taken. The result buffer ends with the product stored whole. -/
noncomputable def kernelRun0_B (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : ¬ k0_cond1 (idWord c i xt0) = 1#1) (hc2 : k0_cond2 (idWord c i xt0) = 1#1) :
    { L2 : List (View.Piece (Elt F) S1x4096x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ tbPt0 c tbM0_0 xt0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ tbPt0 c tbM0_0 xt0) -∗ K ⟨⟩))
          ⊢ wp frame (wpE (defs₀ (F := F)) Variants.none c none) E (cc0__routing_kernel i tbM0_0 htbM0_0 arg2 harg2 arg3 harg3 arg4 harg4) K } := by
  refine ⟨?_, fun E K => ?run⟩
  case run =>
    simp only [cc0__routing_kernel_eq_skeleton]; unfold cc0__routing_kernel_skel
    unfold owns
    iintro ⟨⟨%f0, %hf0, H0⟩, ⟨%f1, %hf1, H1⟩, ⟨%d2, %f2, -, H2⟩, HT0, Hk⟩
    obtain rfl := harg2.eq_unread hf0; obtain rfl := harg3.eq_unread hf1
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HT0

end Cert.KernelIdeal.Frame

end
-- ==== Proof.IdealCases.lean ====
/-
  The two conditionals of the body test one bit: whether the sample's id, read as a signed integer, is negative.
  The first is taken exactly when it is, the second exactly when it is not; so at every point exactly one of them
  runs. The matrix window's block index is the id with negative values sent to 0.
-/
import proofs.«426945_j5952824672291_2_alg».proof.Proof.Gen.KernelIdeal

noncomputable section

namespace Cert.KernelIdeal.Frame

open Cert.KernelIdeal Idealize.ShloMosaic

theorem slt_zero_iff (v : BitVec 32) : v.slt 0#32 = true ↔ v.toInt < 0 := by
  simp [BitVec.slt]

/-- The first conditional's condition is the id's sign. -/
theorem cond1_eq (v : BitVec 32) : k0_cond1 v = BitVec.ofBool (v.slt 0#32) := by
  unfold k0_cond1; simp only [Scalar.cmpi, Scalar.extui, IntOp.cmpi]; cases v.slt 0#32 <;> decide

/-- The second's is its negation. -/
theorem cond2_eq (v : BitVec 32) : k0_cond2 v = BitVec.ofBool (!(v.slt 0#32)) := by
  unfold k0_cond2; simp only [Scalar.cmpi, Scalar.extui, Scalar.xori, IntOp.cmpi, IntOp.xori]; cases v.slt 0#32 <;> decide

theorem cond1_iff (v : BitVec 32) : k0_cond1 v = 1#1 ↔ v.toInt < 0 := by
  rw [cond1_eq, ← slt_zero_iff]; cases v.slt 0#32 <;> decide

theorem cond2_iff (v : BitVec 32) : k0_cond2 v = 1#1 ↔ ¬ v.toInt < 0 := by
  rw [cond2_eq, ← slt_zero_iff]; cases v.slt 0#32 <;> decide

/-- A negative id: the first conditional runs and the second does not. -/
theorem conds_of_neg {v : BitVec 32} (h : v.toInt < 0) : k0_cond1 v = 1#1 ∧ ¬ k0_cond2 v = 1#1 :=
  ⟨(cond1_iff v).mpr h, fun h2 => (cond2_iff v).mp h2 h⟩

/-- Any other id: the first does not run and the second does. -/
theorem conds_of_nonneg {v : BitVec 32} (h : ¬ v.toInt < 0) : ¬ k0_cond1 v = 1#1 ∧ k0_cond2 v = 1#1 :=
  ⟨fun h1 => h ((cond1_iff v).mp h1), (cond2_iff v).mpr h⟩

/-- The id with negative values sent to 0, as a natural number. -/
theorem maxsi_zero_toNat (v : BitVec 32) : (Scalar.maxsi v 0#32).toNat = (max v.toInt 0).toNat := by
  unfold Scalar.maxsi IntOp.maxsi
  have hz : (0#32 : BitVec 32).toInt = 0 := by decide
  by_cases h : (0#32 : BitVec 32).slt v = true
  · rw [if_pos h]
    have h' : 0 < v.toInt := by simpa [BitVec.slt, hz] using h
    have := BitVec.toInt_eq_toNat_cond v
    split at this <;> omega
  · rw [if_neg h]
    have h' : ¬ 0 < v.toInt := by simpa [BitVec.slt, hz] using h
    simp only [BitVec.toNat_ofNat, Nat.zero_mod]
    omega

end Cert.KernelIdeal.Frame

end
-- ==== Proof.IdealFrame.lean ====
/-
  The routing kernel's frame: the proof data of its one pipeline, the body obligation at a generic point, the launch
  and the frame claim, for every table of ids whose words are all below 16.

  After the body at the point of sample b the two input windows' buffers hold their blocks, untouched, and the
  result window's buffer holds what the one whole-block store of the branch taken left: the branch is decided by
  the sign of the id the body loads from the table. The result window is written back at every point, so nothing
  depends on where the printed program calls it idle.
-/
import proofs.«426945_j5952824672291_2_alg».proof.Proof.IdealRun
import proofs.«426945_j5952824672291_2_alg».proof.Proof.IdealCases

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the result's staging buffer holds after each branch -/

/-- The one store of the branch covers the whole block. -/
theorem cover0_A_2 (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : k0_cond1 (idWord c i xt0) = 1#1) (hc2 : ¬ k0_cond2 (idWord c i xt0) = 1#1) (y : S1x4096x256.Idx) :
    ∃ pc ∈ (kernelRun0_A c i arg2 harg2 arg3 harg3 arg4 harg4 x0 x1 xt0 hc1 hc2).1, y ∈ pc.1.set :=
  View.cover_of_wholeMem (kernelRun0_A c i arg2 harg2 arg3 harg3 arg4 harg4 x0 x1 xt0 hc1 hc2).1 (by sl_whole_mem) y
theorem cover0_B_2 (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : ¬ k0_cond1 (idWord c i xt0) = 1#1) (hc2 : k0_cond2 (idWord c i xt0) = 1#1) (y : S1x4096x256.Idx) :
    ∃ pc ∈ (kernelRun0_B c i arg2 harg2 arg3 harg3 arg4 harg4 x0 x1 xt0 hc1 hc2).1, y ∈ pc.1.set :=
  View.cover_of_wholeMem (kernelRun0_B c i arg2 harg2 arg3 harg3 arg4 harg4 x0 x1 xt0 hc1 hc2).1 (by sl_whole_mem) y

/-- One staging buffer of the result window, through which its contents are stated (the choice does not matter). -/
abbrev VO0_2 : View sig .tc .vmem S1x4096x256 .f32 := (Memref.whole cc0_stg2_0 : Memref sig .tc .vmem S1x4096x256 .f32).view

/-- What each run leaves in the result's staging buffer: its pieces read back. -/
def out0_A_2 (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : k0_cond1 (idWord c i xt0) = 1#1) (hc2 : ¬ k0_cond2 (idWord c i xt0) = 1#1) : Vec F S1x4096x256 .f32 :=
  VO0_2.read (Elt F) (VO0_2.writes (Elt F) VO0_2.junk (kernelRun0_A c i arg2 harg2 arg3 harg3 arg4 harg4 x0 x1 xt0 hc1 hc2).1)
def out0_B_2 (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : ¬ k0_cond1 (idWord c i xt0) = 1#1) (hc2 : k0_cond2 (idWord c i xt0) = 1#1) : Vec F S1x4096x256 .f32 :=
  VO0_2.read (Elt F) (VO0_2.writes (Elt F) VO0_2.junk (kernelRun0_B c i arg2 harg2 arg3 harg3 arg4 harg4 x0 x1 xt0 hc1 hc2).1)

/-! ## Point by point -/

/-- The id the body loads at point t: the table's word at the point's sample. -/
abbrev idAt (hO : Ok m) (c : Dev nD) (t : Fin (cfgM m hO).N) : BitVec 32 := idWord c (grid0.coords t) (tbl m 0)

/-- What the result's staging buffer holds after the body at point t: the branch's contents, by the id's sign. -/
def outsAt0 (hO : Ok m) (c : Dev nD) (t : Fin (cfgM m hO).N) : Vec F S1x4096x256 .f32 :=
  if hs : (idAt m hO c t).toInt < 0 then
    out0_A_2 c (grid0.coords t) (ms0_0 m hO t) (hs0_0 m hO t) (ms0_1 m hO t) (hs0_1 m hO t) (ms0_2 m hO t) (hs0_2 m hO t)
      (iblk m hO c 0 t) (iblk m hO c 1 t) (tbl m 0) (conds_of_neg hs).1 (conds_of_neg hs).2
  else
    out0_B_2 c (grid0.coords t) (ms0_0 m hO t) (hs0_0 m hO t) (ms0_1 m hO t) (hs0_1 m hO t) (ms0_2 m hO t) (hs0_2 m hO t)
      (iblk m hO c 0 t) (iblk m hO c 1 t) (tbl m 0) (conds_of_nonneg hs).1 (conds_of_nonneg hs).2

/-! ## The pipeline's proof data -/

/-- The arrays as the region finds them; after the body each input's buffer at its block and the result's at
    `outsAt0`; the invariant the scoped rest with the table's half; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outsAt0 m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outsAt0 m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-- Exactly one conditional stores at every point: the result window is idle nowhere. -/
theorem not_both_skipped (v : BitVec 32) : (!(k0_cond1 v == 1#1) && !(k0_cond2 v == 1#1)) = false := by
  rw [cond1_eq, cond2_eq]
  cases v.slt 0#32 <;> decide

theorem idle2_false (hO : Ok m) (t : Fin (cfgM m hO).N) : (cfgM m hO).idle 2 ((cfgM m hO).grid.coords t) = false :=
  not_both_skipped _

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: the inputs' buffers hold their blocks, so the run of the id's branch applies; the
    invariant passes through, the table read and handed back. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outsAt0
  by_cases hs : (idAt m hO c t).toInt < 0
  ·
    rw [dif_pos hs]
    unfold out0_A_2
    iintro ⟨⟨HΦ, HT0⟩, Ho, ⟨%d0, H0⟩, ⟨%d1, H1⟩, ⟨%d2, H2⟩⟩
    iapply ((kernelRun0_A c (grid0.coords t) _ _ _ _ _ _ (iblk m hO c 0 t) (iblk m hO c 1 t) (tbl m 0) (conds_of_neg hs).1 (conds_of_neg hs).2).2 Set.univ _)
    isplitl [H0]; · iexact H0
    isplitl [H1]; · iexact H1
    isplitl [H2]; · iexists _; iexact H2
    isplitl [HT0]; · iexact HT0
    iintro ⟨H0, H1, ⟨%e2, H2⟩, HT0⟩
    isplitl [HΦ HT0]
    · isplitl [HΦ]
      · iexact HΦ
      iexact HT0
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  ·
    rw [dif_neg hs]
    unfold out0_B_2
    iintro ⟨⟨HΦ, HT0⟩, Ho, ⟨%d0, H0⟩, ⟨%d1, H1⟩, ⟨%d2, H2⟩⟩
    iapply ((kernelRun0_B c (grid0.coords t) _ _ _ _ _ _ (iblk m hO c 0 t) (iblk m hO c 1 t) (tbl m 0) (conds_of_nonneg hs).1 (conds_of_nonneg hs).2).2 Set.univ _)
    isplitl [H0]; · iexact H0
    isplitl [H1]; · iexact H1
    isplitl [H2]; · iexists _; iexact H2
    isplitl [HT0]; · iexact HT0
    iintro ⟨H0, H1, ⟨%e2, H2⟩, HT0⟩
    isplitl [HΦ HT0]
    · isplitl [HΦ]
      · iexact HΦ
      iexact HT0
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _)

/-- The library's body obligation, at every point. -/
theorem body_obligation (hO : Ok m) (c : Dev nD) : BodyObligation (dats (F := F) m hO 0 c) (defs₀ (F := F)) Variants.none () Set.univ := fun t => by
  rw [bigSep_W0, bigSep_W0, idle2_false]
  exact sound_body m hO c t

/-! ## The run and the frame -/

set_option backward.isDefEq.respectTransparency.types false in
/-- Every weakly fair execution of @main terminates, and every final state has every array of the pipeline at what
    the library computes from the proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame claim at any float instance, for every table of ids whose matrix blocks lie inside the matrices. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

end Cert.KernelIdeal.Frame

end
-- ==== Proof.IdealOk.lean ====
/-
  The table of ids and the pipeline's side condition.

  The table is the ids' column read as a vector, so its word at sample b is the id of sample b. The index map of the
  matrix window and the body read the same word at the point of sample b. When every id, read as a signed integer, is
  below 16, the matrix window's block index max(id, 0) is below 16 at every point: its block lies inside the sixteen
  matrices, which is the side condition the pipeline asks of the table.
-/
import proofs.«426945_j5952824672291_2_alg».proof.Proof.IdealRun
import proofs.«426945_j5952824672291_2_alg».proof.Proof.IdealCases
import Idealize.ShloMosaic.Lib.StableHlo.Run
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The sample a grid point stands for. -/
abbrev smp (i : grid0.Coords) : Fin 64 := ⟨(i 0).val, (i 0).isLt⟩

/-- The ids' column as launched, on the one device. -/
abbrev ids : S64x1.Idx → Elt F .i32 := m (((0 : Dev nD) : Thread nD τ).loc main_arg2)

/-- The table is the ids' column reshaped to a vector. -/
theorem tbl_eq : (tbl m 0 : S64.Idx → Elt F .i32) = shapeCast S64 (m (((0 : Dev nD) : Thread nD τ).loc main_arg2)) shapeCasts_S64x1_S64 := by
  unfold tbl
  show V m 0 main_v0 = _
  dsimp only [V, hostOps0]
  after_results
  rfl

/-- Its word at sample b is the id of sample b. -/
theorem tbl_apply (b : Fin 64) : (tbl m 0 : S64.Idx → Elt F .i32) (ix1 b) = ids m (ix2 b (0 : Fin 1)) := by
  rw [tbl_eq]
  refine shapeCast_apply _ _ _ _ ?_
  show (S64x1.rowMajor (ix2 b (0 : Fin 1))).val = (S64.rowMajor (ix1 b)).val
  rewrite [Shape.rowMajor_val_two, Shape.rowMajor_val_one]
  show b.val * 1 + 0 = b.val
  omega

/-- The word the body loads at a point is the table's at the point's sample. -/
theorem idWord_eq (c : Dev nD) (i : grid0.Coords) (xt0 : TbBuf0 (F := F) c tbM0_0) :
    idWord c i xt0 = (xt0 : S64.Idx → Elt F .i32) (ix1 (smp i)) := by
  unfold idWord
  rw [View.readAt_apply, View.read_apply, cast_eq]
  refine congrArg xt0 ?_
  funext a; apply Fin.ext
  match a with
  | ⟨0, _⟩ =>
    have hk : k0_off1 i 0 = (i 0).val := by rw [k0_off1_eq]; rfl
    show k0_off1 i 0 + 1 * 0 = (i 0).val
    omega

/-- So is the word the matrix window's index map reads there. -/
theorem at_eq (pf : pre0.Contents (Elt F)) (i : grid0.Coords) :
    pf.at 0 (Rect.unit (s := S64) ![(Scalar.indexCast (BitVec.ofNat 32 (i 0).val)).toNat] S1.size (k0_off1_inb i)) numel1_S1
      = (pf 0 : S64.Idx → Elt F .i32) (ix1 (smp i)) := by
  show pf 0 _ = _
  refine congrArg (pf 0) ?_
  funext a; apply Fin.ext
  match a with
  | ⟨0, _⟩ =>
    have hi : (i 0).val < 64 := (i 0).isLt
    have hk : (Scalar.indexCast (BitVec.ofNat 32 (i 0).val)).toNat = (i 0).val := by
      unfold Scalar.indexCast; rw [BitVec.toNat_ofNat]; omega
    show (Scalar.indexCast (BitVec.ofNat 32 (i 0).val)).toNat + 1 * 0 = (i 0).val
    omega

/-- The id of sample b, as launched. -/
def sampleId (b : Fin 64) : BitVec 32 := ids m (ix2 b (0 : Fin 1))

/-- The table's word at sample b. -/
def tblId (b : Fin 64) : BitVec 32 := (tbl m 0 : S64.Idx → Elt F .i32) (ix1 b)

theorem tblId_eq (b : Fin 64) : tblId m b = sampleId m b := tbl_apply m b

/-- The body loads the id of the point's sample. -/
theorem idWord_tbl (c : Dev nD) (i : grid0.Coords) : idWord c i (tbl m 0) = sampleId m (smp i) :=
  (idWord_eq c i (tbl m 0)).trans (tblId_eq m (smp i))

/-- The matrix window's block index at a point: the id there with negative values sent to 0; nothing on the other
    two axes. -/
theorem transform_1_eq (i : grid0.Coords) :
    cc0_transform_1 k0_off1_inb numel1_S1 (tbl m) i = ![(Scalar.maxsi (sampleId m (smp i)) 0#32).toNat, 0, 0] := by
  unfold cc0_transform_1
  exact congrArg (fun v : BitVec 32 => (![(Scalar.maxsi v 0#32).toNat, 0, 0] : Fin 3 → Nat))
    ((at_eq (tbl m) i).trans (tblId_eq m (smp i)))

/-- Ids below 16 make every matrix block lie inside the sixteen matrices. -/
theorem ok_of_ids (hlt : ∀ b : Fin 64, (sampleId m b).toInt < 16) : Ok m := by
  intro i
  have hb := hlt (smp i)
  have hn : (Scalar.maxsi (sampleId m (smp i)) 0#32).toNat < 16 := by
    rw [maxsi_zero_toNat]; omega
  refine ⟨fun a => ?_, .inl rfl⟩
  rw [transform_1_eq]
  match a with
  | ⟨0, _⟩ => show ((Scalar.maxsi (sampleId m (smp i)) 0#32).toNat + 1) * 1 ≤ 16; omega
  | ⟨1, _⟩ => show (0 + 1) * 256 ≤ 256; omega
  | ⟨2, _⟩ => show (0 + 1) * 256 ≤ 256; omega

end Cert.KernelIdeal.Frame

end
-- ==== Proof.IdealPayload.lean ====
import proofs.«426945_j5952824672291_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx

/-! ## The pass-through payload

The block `[1, 4096, 256]` loses its leading unit axis and gets it back: both casts keep the row-major position, so
the entry `(0, s, e)` reads the entry `(s, e)` of the matrix, which reads the entry `(0, s, e)` of the block. -/

theorem pay1_apply (v8 : Vec Ideal S1x4096x256 .f32) (s : Fin 4096) (e : Fin 256) :
    k0_pay1 (F := Ideal) v8 (ix3 (0 : Fin 1) s e) = v8 (ix3 (0 : Fin 1) s e) := by
  show shapeCast S1x4096x256 (shapeCast S4096x256 v8 shapeCasts_S1x4096x256_S4096x256)
      shapeCasts_S4096x256_S1x4096x256 (ix3 (0 : Fin 1) s e) = _
  exact (shapeCast_ab_1ab_apply _ _ _ _ _).trans (shapeCast_1ab_ab_apply _ _ _ _)

/-! ## The contraction's operand indices

The dimension numbers contract axis 1 of both operands and keep axis 0 of both, the left operand's first: at the result
entry `(s, e)` and contraction position `d` the left operand is read at `(s, d)` and the right one at `(e, d)` — the right
operand enters transposed. One lemma per operand and axis. -/

theorem lhs_pay2_0 (i : S4096x256.Idx) (q : dot_S4096x256_S256x256_S4096x256_1_1_0_0_n_n.contr.Idx) :
    (dot_S4096x256_S256x256_S4096x256_1_1_0_0_n_n.lhsIdx i q 0).val = (i 0).val := by
  unfold DotDims.lhsIdx
  rw [dif_neg (show ¬(0 : Fin S4096x256.rank) ∈ dot_S4096x256_S256x256_S4096x256_1_1_0_0_n_n.lhsBatch by decide), dif_pos (show (0 : Fin S4096x256.rank) ∈ dot_S4096x256_S256x256_S4096x256_1_1_0_0_n_n.lhsNonContracting by decide)]
  rfl

theorem lhs_pay2_1 (i : S4096x256.Idx) (q : dot_S4096x256_S256x256_S4096x256_1_1_0_0_n_n.contr.Idx) :
    (dot_S4096x256_S256x256_S4096x256_1_1_0_0_n_n.lhsIdx i q 1).val = (q ⟨0, by decide⟩).val :=
  dot_S4096x256_S256x256_S4096x256_1_1_0_0_n_n.lhsIdx_val_of_single rfl i q

theorem rhs_pay2_0 (i : S4096x256.Idx) (q : dot_S4096x256_S256x256_S4096x256_1_1_0_0_n_n.contr.Idx) :
    (dot_S4096x256_S256x256_S4096x256_1_1_0_0_n_n.rhsIdx i q 0).val = (i 1).val := by
  unfold DotDims.rhsIdx
  rw [dif_neg (show ¬(0 : Fin S256x256.rank) ∈ dot_S4096x256_S256x256_S4096x256_1_1_0_0_n_n.rhsBatch by decide), dif_pos (show (0 : Fin S256x256.rank) ∈ dot_S4096x256_S256x256_S4096x256_1_1_0_0_n_n.rhsNonContracting by decide)]
  rfl

theorem rhs_pay2_1 (i : S4096x256.Idx) (q : dot_S4096x256_S256x256_S4096x256_1_1_0_0_n_n.contr.Idx) :
    (dot_S4096x256_S256x256_S4096x256_1_1_0_0_n_n.rhsIdx i q 1).val = (q ⟨0, by decide⟩).val :=
  dot_S4096x256_S256x256_S4096x256_1_1_0_0_n_n.rhsIdx_val_of_single rfl i q

/-! ## The product into the zero accumulator, read at an entry

Over the extended reals the product into the zero splat is the bare sum over the contraction index; that index has one
axis of extent 256, so the sum is re-indexed by its one coordinate. -/

theorem matmul_zero_apply (x : FVec Ideal S4096x256 .bf16) (w : FVec Ideal S256x256 .bf16) (s : Fin 4096) (e : Fin 256) :
    matmul (F := Ideal) dot_S4096x256_S256x256_S4096x256_1_1_0_0_n_n none x w
        (constant (F := Ideal) S4096x256 .f32 0x00000000#32) (ix2 s e)
      = ∑ d : Fin 256, x (ix2 s d) * w (ix2 e d) := by
  simp only [matmul]
  rw [Ideal.matmul_constant_zero_apply, ← Equiv.sum_comp (contrEquiv1 dot_S4096x256_S256x256_S4096x256_1_1_0_0_n_n 256 rfl rfl).symm]
  refine Finset.sum_congr rfl fun k _ => ?_
  have hk := contrEquiv1_symm_val dot_S4096x256_S256x256_S4096x256_1_1_0_0_n_n 256 rfl rfl k
  have el : dot_S4096x256_S256x256_S4096x256_1_1_0_0_n_n.lhsIdx (ix2 s e) ((contrEquiv1 dot_S4096x256_S256x256_S4096x256_1_1_0_0_n_n 256 rfl rfl).symm k) = ix2 s k := funext fun a => Fin.ext (by
    match a with
    | ⟨0, _⟩ => exact lhs_pay2_0 _ _
    | ⟨1, _⟩ => exact (lhs_pay2_1 _ _).trans hk)
  have er : dot_S4096x256_S256x256_S4096x256_1_1_0_0_n_n.rhsIdx (ix2 s e) ((contrEquiv1 dot_S4096x256_S256x256_S4096x256_1_1_0_0_n_n 256 rfl rfl).symm k) = ix2 e k := funext fun a => Fin.ext (by
    match a with
    | ⟨0, _⟩ => exact rhs_pay2_0 _ _
    | ⟨1, _⟩ => exact (rhs_pay2_1 _ _).trans hk)
  rw [el, er]

/-! ## The routed payload

Both operands lose their leading unit axis, the change of format to bf16 is the identity on extended reals, the product
is the sum above, and the result gets its unit axis back. -/

theorem pay2_apply (v8 : Vec Ideal S1x4096x256 .f32) (v10 : Vec Ideal S1x256x256 .f32) (s : Fin 4096) (e : Fin 256) :
    k0_pay2 (F := Ideal) v8 v10 (ix3 (0 : Fin 1) s e)
      = ∑ d : Fin 256, (v8 (ix3 (0 : Fin 1) s d) : Elt Ideal .f32) * v10 (ix3 (0 : Fin 1) e d) := by
  show shapeCast S1x4096x256
      (matmul (F := Ideal) dot_S4096x256_S256x256_S4096x256_1_1_0_0_n_n none
        (truncf .bf16 (shapeCast S4096x256 v8 shapeCasts_S1x4096x256_S4096x256) bitsLt_bf16_f32)
        (truncf .bf16 (shapeCast S256x256 v10 shapeCasts_S1x256x256_S256x256) bitsLt_bf16_f32)
        (constant (F := Ideal) S4096x256 .f32 0x00000000#32))
      shapeCasts_S4096x256_S1x4096x256 (ix3 (0 : Fin 1) s e) = _
  rw [shapeCast_ab_1ab_apply, matmul_zero_apply]
  refine Finset.sum_congr rfl fun d _ => ?_
  rw [truncf_apply, truncf_apply, shapeCast_1ab_ab_apply, shapeCast_1ab_ab_apply]

end Cert.KernelIdeal.Payload

end
-- ==== Proof.Spec.lean ====
/-
  The routed projection, as one function of the three argument arrays.

  Sample b carries an integer id p = pair_id[b, 0]. A negative id passes the sample through unchanged; any other id
  selects one of the sixteen 256×256 matrices — the id clamped into 0 … 15 — and every row s of the sample is
  multiplied by that matrix transposed:

      out[b, s, e] = x[b, s, e]                                   if p < 0
      out[b, s, e] = ∑ d, x[b, s, d] · w[lang p, e, d]              otherwise.

  Both programs are shown equal to this function, entry by entry, over the extended reals.
-/
import Idealize.ShloMosaic.PureOps.Ideal
import Idealize.ShloMosaic.Lib.ValueIdx

noncomputable section

namespace Route

open Idealize.ShloMosaic Idealize.ShloMosaic.ValueIdx

/-- The samples: 64 sequences of 4096 rows of 256 features. -/
abbrev SX : Shape := ⟨3, ![64, 4096, 256]⟩
/-- The sixteen 256×256 matrices. -/
abbrev SW : Shape := ⟨3, ![16, 256, 256]⟩
/-- One id per sample, as a column. -/
abbrev SP : Shape := ⟨2, ![64, 1]⟩

/-- The matrix an id selects: the id read as a signed integer, clamped below at 0 and above at 15. -/
def lang (p : BitVec 32) : Fin 16 := ⟨min (max p.toInt 0).toNat 15, by omega⟩

/-- The id of sample b. -/
def idOf (pid : IVec SP 32) (b : Fin 64) : BitVec 32 := pid (ix2 b (0 : Fin 1))

/-- The entry (b, s, e) of the result. -/
def routedAt (x : FVec Ideal SX .f32) (w : FVec Ideal SW .f32) (pid : IVec SP 32)
    (b : Fin 64) (s : Fin 4096) (e : Fin 256) : Elt Ideal .f32 :=
  if (idOf pid b).toInt < 0 then x (ix3 b s e)
  else ∑ d : Fin 256, x (ix3 b s d) * w (ix3 (lang (idOf pid b)) e d)

/-- The whole result array. -/
def routed (x : FVec Ideal SX .f32) (w : FVec Ideal SW .f32) (pid : IVec SP 32) : FVec Ideal SX .f32 :=
  fun i => routedAt x w pid (i 0) (i 1) (i 2)

theorem routed_ix3 (x : FVec Ideal SX .f32) (w : FVec Ideal SW .f32) (pid : IVec SP 32)
    (b : Fin 64) (s : Fin 4096) (e : Fin 256) : routed x w pid (ix3 b s e) = routedAt x w pid b s e := rfl

/-- An id below 16 selects the matrix of its own number once negative ids are sent to 0. -/
theorem lang_val_of_lt {p : BitVec 32} (h : p.toInt < 16) : (lang p).val = (max p.toInt 0).toNat := by
  unfold lang; show min _ 15 = _; omega

end Route

end
-- ==== Proof.IdealValue.lean ====
/-
  What the routing kernel computes, over the extended reals: after the run the result array is the routed projection
  of the three argument arrays (Spec), entry by entry.

  Point b of the grid writes back block (b, 0, 0) of the result: the whole sample b. What it writes is the branch's one
  stored payload: the sample's block itself when the id of b is negative, else the product of the sample's block with
  the transposed block of the matrix window, which is matrix max(id b, 0) — and that is matrix lang(id b) because the
  ids are below 16. The 64 blocks tile the result array, so the array ends at the routed projection everywhere.
-/
import proofs.«426945_j5952824672291_2_alg».proof.Proof.IdealFrame
import proofs.«426945_j5952824672291_2_alg».proof.Proof.IdealOk
import proofs.«426945_j5952824672291_2_alg».proof.Proof.IdealPayload
import proofs.«426945_j5952824672291_2_alg».proof.Proof.Spec
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz3 : (![0, 0, 0] : Fin 3 → Nat) = fun _ => 0 := funext fun a => by fin_cases a <;> rfl

/-! ## What each branch leaves, as the body's payload -/

/-- A negative id: the result buffer holds the sample's block (through two reshapes that undo each other). -/
theorem out_A (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : k0_cond1 (idWord c i xt0) = 1#1) (hc2 : ¬ k0_cond2 (idWord c i xt0) = 1#1) :
    out0_A_2 c i arg2 harg2 arg3 harg3 arg4 harg4 x0 x1 xt0 hc1 hc2 = k0_pay1 x0 := by
  unfold out0_A_2
  rw [View.read_writes_eq_canon _ _ _ (cover0_A_2 c i arg2 harg2 arg3 harg3 arg4 harg4 x0 x1 xt0 hc1 hc2)]
  unfold kernelRun0_A
  dsimp only
  sl_unfold_words
  rw [View.canon_unit_zero hz3]
  simp only [View.readAt_eq_ld, harg2.read_unread, View.ld_unit_zero (S := S1x4096x256) hz3]

/-- Any other id: the result buffer holds the product of the sample's block and the matrix's block. -/
theorem out_B (c : Dev nD) (i : grid0.Coords)
    (arg2 : Memref sig .tc .vmem S1x4096x256 .f32) (harg2 : arg2.IsWhole)
    (arg3 : Memref sig .tc .vmem S1x256x256 .f32) (harg3 : arg3.IsWhole)
    (arg4 : Memref sig .tc .vmem S1x4096x256 .f32) (harg4 : arg4.IsWhole)
    (x0 : Vec F S1x4096x256 .f32) (x1 : Vec F S1x256x256 .f32) (xt0 : TbBuf0 (F := F) c tbM0_0)
    (hc1 : ¬ k0_cond1 (idWord c i xt0) = 1#1) (hc2 : k0_cond2 (idWord c i xt0) = 1#1) :
    out0_B_2 c i arg2 harg2 arg3 harg3 arg4 harg4 x0 x1 xt0 hc1 hc2 = k0_pay2 x0 x1 := by
  unfold out0_B_2
  rw [View.read_writes_eq_canon _ _ _ (cover0_B_2 c i arg2 harg2 arg3 harg3 arg4 harg4 x0 x1 xt0 hc1 hc2)]
  unfold kernelRun0_B
  dsimp only
  sl_unfold_words
  rw [View.canon_unit_zero hz3]
  simp only [View.readAt_eq_ld, harg2.read_unread, harg3.read_unread, View.ld_unit_zero (S := S1x4096x256) hz3, View.ld_unit_zero (S := S1x256x256) hz3]

/-! ## The blocks, read at an entry -/

section Value

variable (m : (ℓ : Loc nD τ sig) → Buf (Elt Ideal) ℓ) (ρ : Dev nD → PrngReg)

/-- The samples and the matrices as launched, on the one device. -/
abbrev xs : FVec Ideal S64x4096x256 .f32 := m (((0 : Dev nD) : Thread nD τ).loc main_arg0)
abbrev ws : FVec Ideal S16x256x256 .f32 := m (((0 : Dev nD) : Thread nD τ).loc main_arg1)

/-- The sample window's and the result window's block index at a point: the point's sample. -/
theorem transform_0_eq (i : grid0.Coords) : cc0_transform_0 i = ![(i 0).val, 0, 0] := by
  have hi : (i 0).val < 64 := (i 0).isLt
  unfold cc0_transform_0
  funext a
  match a with
  | ⟨0, _⟩ => show (BitVec.ofNat 32 (i 0).val).toNat = (i 0).val; rw [BitVec.toNat_ofNat]; omega
  | ⟨1, _⟩ => rfl
  | ⟨2, _⟩ => rfl
theorem transform_2_eq (i : grid0.Coords) : cc0_transform_2 i = ![(i 0).val, 0, 0] := by
  have hi : (i 0).val < 64 := (i 0).isLt
  unfold cc0_transform_2
  funext a
  match a with
  | ⟨0, _⟩ => show (BitVec.ofNat 32 (i 0).val).toNat = (i 0).val; rw [BitVec.toNat_ofNat]; omega
  | ⟨1, _⟩ => rfl
  | ⟨2, _⟩ => rfl

/-- The sample window's block at point t, at (0, s, e), is the sample's entry (s, e). -/
theorem iblk0_apply (hO : Ok m) (t : Fin (cfgM m hO).N) (s : Fin 4096) (e : Fin 256) :
    (iblk m hO 0 0 t : S1x4096x256.Idx → Elt Ideal .f32) (ix3 (0 : Fin 1) s e) = xs m (ix3 (smp (grid0.coords t)) s e) := by
  show V m 0 main_arg0 ((((cfgM m hO).win 0).blk t).view.emb (ix3 (0 : Fin 1) s e)) = _
  rw [V_main_arg0]
  refine congrArg (xs m) ?_
  funext a; apply Fin.ext
  have h0 := congrFun (transform_0_eq (grid0.coords t))
  match a with
  | ⟨0, _⟩ => show cc0_transform_0 (grid0.coords t) 0 * 1 + 1 * 0 = ((grid0.coords t) 0).val; rw [h0 0]; show ((grid0.coords t) 0).val * 1 + 1 * 0 = _; omega
  | ⟨1, _⟩ => show cc0_transform_0 (grid0.coords t) 1 * 4096 + 1 * s.val = s.val; rw [h0 1]; show 0 * 4096 + 1 * s.val = _; omega
  | ⟨2, _⟩ => show cc0_transform_0 (grid0.coords t) 2 * 256 + 1 * e.val = e.val; rw [h0 2]; show 0 * 256 + 1 * e.val = _; omega

/-- The matrix max(id, 0) of the point's sample, as an index below 16 when the ids are. -/
def matOf (hlt : ∀ b : Fin 64, (sampleId m b).toInt < 16) (b : Fin 64) : Fin 16 :=
  ⟨(Scalar.maxsi (sampleId m b) 0#32).toNat, by rw [maxsi_zero_toNat]; have := hlt b; omega⟩

/-- The matrix window's block at point t, at (0, e, d), is the entry (e, d) of that matrix. -/
theorem iblk1_apply (hO : Ok m) (hlt : ∀ b : Fin 64, (sampleId m b).toInt < 16) (t : Fin (cfgM m hO).N) (e d : Fin 256) :
    (iblk m hO 0 1 t : S1x256x256.Idx → Elt Ideal .f32) (ix3 (0 : Fin 1) e d) = ws m (ix3 (matOf m hlt (smp (grid0.coords t))) e d) := by
  show V m 0 main_arg1 ((((cfgM m hO).win 1).blk t).view.emb (ix3 (0 : Fin 1) e d)) = _
  rw [V_main_arg1]
  refine congrArg (ws m) ?_
  funext a; apply Fin.ext
  have h1 := congrFun (transform_1_eq m (grid0.coords t))
  match a with
  | ⟨0, _⟩ => show cc0_transform_1 k0_off1_inb numel1_S1 (tbl m) (grid0.coords t) 0 * 1 + 1 * 0 = (Scalar.maxsi (sampleId m (smp (grid0.coords t))) 0#32).toNat; rw [h1 0]; show (Scalar.maxsi (sampleId m (smp (grid0.coords t))) 0#32).toNat * 1 + 1 * 0 = _; omega
  | ⟨1, _⟩ => show cc0_transform_1 k0_off1_inb numel1_S1 (tbl m) (grid0.coords t) 1 * 256 + 1 * e.val = e.val; rw [h1 1]; show 0 * 256 + 1 * e.val = _; omega
  | ⟨2, _⟩ => show cc0_transform_1 k0_off1_inb numel1_S1 (tbl m) (grid0.coords t) 2 * 256 + 1 * d.val = d.val; rw [h1 2]; show 0 * 256 + 1 * d.val = _; omega

/-- The result window's block at point t sits at sample t of the array. -/
theorem blk2_emb (hO : Ok m) (t : Fin (cfgM m hO).N) (s : Fin 4096) (e : Fin 256) :
    ((((cfgM m hO).win 2).blk t).view.emb (ix3 (0 : Fin 1) s e) : S64x4096x256.Idx) = ix3 (smp (grid0.coords t)) s e := by
  funext a; apply Fin.ext
  have h2 := congrFun (transform_2_eq (grid0.coords t))
  match a with
  | ⟨0, _⟩ => show cc0_transform_2 (grid0.coords t) 0 * 1 + 1 * 0 = ((grid0.coords t) 0).val; rw [h2 0]; show ((grid0.coords t) 0).val * 1 + 1 * 0 = _; omega
  | ⟨1, _⟩ => show cc0_transform_2 (grid0.coords t) 1 * 4096 + 1 * s.val = s.val; rw [h2 1]; show 0 * 4096 + 1 * s.val = _; omega
  | ⟨2, _⟩ => show cc0_transform_2 (grid0.coords t) 2 * 256 + 1 * e.val = e.val; rw [h2 2]; show 0 * 256 + 1 * e.val = _; omega

/-- With ids below 16 the matrix of a sample is the one the specification names. -/
theorem matOf_eq_lang (hlt : ∀ b : Fin 64, (sampleId m b).toInt < 16) (b : Fin 64) : matOf m hlt b = Route.lang (sampleId m b) := by
  apply Fin.ext
  show (Scalar.maxsi (sampleId m b) 0#32).toNat = (Route.lang (sampleId m b)).val
  rw [Route.lang_val_of_lt (hlt b), maxsi_zero_toNat]

/-! ## What a point writes back, and the array after the run -/

/-- WHAT POINT t WRITES BACK is block t of the routed projection of the argument arrays. -/
theorem flushed_eq (hO : Ok m) (hlt : ∀ b : Fin 64, (sampleId m b).toInt < 16) (c : Dev nD) (t : Fin (cfgM m hO).N) :
    (dats m hO 0 c).flushed 2 t = (((cfgM m hO).win 2).blk t).view.read (Elt Ideal) (Route.routed (xs m) (ws m) (ids m)) := by
  obtain rfl : c = 0 := Subsingleton.elim _ _
  show ((cfgM m hO).win 2).cut (grid0.coords t) ((dats m hO 0 0).after 2 t) = _
  rw [after0_2]
  funext j
  change S1x4096x256.Idx at j
  obtain ⟨z, s, e, rfl⟩ : ∃ (z : Fin 1) (s : Fin 4096) (e : Fin 256), j = ix3 z s e := ⟨j 0, j 1, j 2, eq_ix3 j⟩
  obtain rfl : z = 0 := Subsingleton.elim _ _
  have hid : idAt m hO 0 t = sampleId m (smp (grid0.coords t)) := idWord_tbl m 0 (grid0.coords t)
  have hR : (((cfgM m hO).win 2).blk t).view.read (Elt Ideal) (Route.routed (xs m) (ws m) (ids m)) (ix3 (0 : Fin 1) s e)
      = Route.routedAt (xs m) (ws m) (ids m) (smp (grid0.coords t)) s e := by
    show Route.routed (xs m) (ws m) (ids m) ((((cfgM m hO).win 2).blk t).view.emb (ix3 (0 : Fin 1) s e)) = _
    rw [blk2_emb]; rfl
  refine Eq.trans ?_ hR.symm
  show outsAt0 m hO 0 t (ix3 (0 : Fin 1) s e) = _
  unfold outsAt0 Route.routedAt
  by_cases hs : (idAt m hO 0 t).toInt < 0
  · rw [dif_pos hs, if_pos (show (Route.idOf (ids m) (smp (grid0.coords t))).toInt < 0 from by rw [hid] at hs; exact hs)]
    refine (congrFun (out_A (F := Ideal) (0 : Dev nD) (grid0.coords t) (ms0_0 m hO t) (hs0_0 m hO t) (ms0_1 m hO t) (hs0_1 m hO t) (ms0_2 m hO t) (hs0_2 m hO t) (iblk m hO 0 0 t) (iblk m hO 0 1 t) (tbl m 0) (conds_of_neg hs).1 (conds_of_neg hs).2) (ix3 (0 : Fin 1) s e)).trans ?_
    refine (Payload.pay1_apply (iblk m hO 0 0 t) s e).trans ?_
    exact iblk0_apply m hO t s e
  · rw [dif_neg hs, if_neg (show ¬ (Route.idOf (ids m) (smp (grid0.coords t))).toInt < 0 from by rw [hid] at hs; exact hs)]
    refine (congrFun (out_B (F := Ideal) (0 : Dev nD) (grid0.coords t) (ms0_0 m hO t) (hs0_0 m hO t) (ms0_1 m hO t) (hs0_1 m hO t) (ms0_2 m hO t) (hs0_2 m hO t) (iblk m hO 0 0 t) (iblk m hO 0 1 t) (tbl m 0) (conds_of_nonneg hs).1 (conds_of_nonneg hs).2) (ix3 (0 : Fin 1) s e)).trans ?_
    refine (Payload.pay2_apply (iblk m hO 0 0 t) (iblk m hO 0 1 t) s e).trans ?_
    refine Finset.sum_congr rfl fun d _ => ?_
    rw [iblk0_apply m hO t s d, iblk1_apply m hO hlt t e d, matOf_eq_lang]
    rfl

/-- On the one-axis grid a point's coordinate is the point's number. -/
theorem coords_val : ∀ t : Fin grid0.N, ((grid0.coords t) 0).val = t.val := by decide +kernel

/-- Every entry of the result array is in the block of the point of its sample, which is written back. -/
theorem cover2 (hO : Ok m) (i : S64x4096x256.Idx) :
    ∃ t : Fin (cfgM m hO).N, ((cfgM m hO).win 2).flush t = true ∧ i ∈ (((cfgM m hO).win 2).blk t).view.set := by
  have hi0 : (i 0).val < grid0.N := by rw [N_0]; exact (i 0).isLt
  refine ⟨⟨(i 0).val, hi0⟩, flush0_2 (adm m hO) _, ?_⟩
  have he : ((((cfgM m hO).win 2).blk ⟨(i 0).val, hi0⟩).view.emb (ix3 (0 : Fin 1) (i 1) (i 2)) : S64x4096x256.Idx) = i := by
    refine (blk2_emb m hO ⟨(i 0).val, hi0⟩ (i 1) (i 2)).trans ?_
    funext a; apply Fin.ext
    match a with
    | ⟨0, _⟩ => exact coords_val ⟨(i 0).val, hi0⟩
    | ⟨1, _⟩ => rfl
    | ⟨2, _⟩ => rfl
  have hmem := (((cfgM m hO).win 2).blk ⟨(i 0).val, hi0⟩).view.emb_mem_set (ix3 (0 : Fin 1) (i 1) (i 2))
  rw [he] at hmem
  exact hmem

/-- THE RESULT ARRAY after the run is the routed projection of the argument arrays. -/
theorem final2 (hO : Ok m) (hlt : ∀ b : Fin 64, (sampleId m b).toInt < 16) (c : Dev nD) :
    (dats m hO 0 c).arrAt 2 (cfgM m hO).N = Route.routed (xs m) (ws m) (ids m) :=
  (dats m hO 0 c).arrAt_eq_of_cover 2 (Route.routed (xs m) (ws m) (ids m)) (fun t _ => flushed_eq m hO hlt c t) (cover2 m hO)

/-- The run, read: every weakly fair execution ends with the result array at the routed projection of the argument
    arrays and the argument arrays unchanged. -/
theorem run_value (hO : Ok m) (hlt : ∀ b : Fin 64, (sampleId m b).toInt < 16) :
    θ_run defs (onTc (τ := τ) (main (F := Ideal))) ⟨m, fun _ => 0, ρ⟩ (fun r => ∀ c : Dev nD,
      r.2.mem ((c.tc : Thread nD τ).loc main_v1) = Route.routed (xs m) (ws m) (ids m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 2).trans (final2 m hO hlt c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩) (run_main m ρ hO)

end Value

end Cert.KernelIdeal.Frame

end
-- ==== Proof.RefSide.lean ====
import proofs.«426945_j5952824672291_2_alg».proof.Proof.Gen.ReferenceIdeal.Read
import proofs.«426945_j5952824672291_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The per-sample matrix lookup read at (b, r, c): the table at the row block the start index of sample b
    names — read as a signed integer and clamped into 0 … 15 — and at (r, c) inside that block. -/
theorem gather_rows_apply {α : Type} {w : Nat} (x : S16x256x256.Idx → α) (idx : IVec S64x1 w)
    (b : Fin 64) (r c : Fin 256) :
    Host.gather gather_S16x256x256_S64x1_S64x256x256_12_0_n_n_0_1_1256256 x idx (ix3 b r c)
      = x (ix3 (⟨min (idx (ix2 b (0 : Fin 1))).toInt.toNat 15, by omega⟩ : Fin 16) r c) := by
  unfold Host.gather
  congr 1
  funext a
  refine Fin.ext ?_
  match a with
  | ⟨0, _⟩ =>
    show gather_S16x256x256_S64x1_S64x256x256_12_0_n_n_0_1_1256256.start (ix3 b r c) idx 0
        + gather_S16x256x256_S64x1_S64x256x256_12_0_n_n_0_1_1256256.batchCoord (ix3 b r c) 0
        + gather_S16x256x256_S64x1_S64x256x256_12_0_n_n_0_1_1256256.offCoord (ix3 b r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x256x256_S64x1_S64x256x256_12_0_n_n_0_1_1256256.startIndexMap from
      List.mem_singleton.mpr rfl)]
    have hsi : gather_S16x256x256_S64x1_S64x256x256_12_0_n_n_0_1_1256256.siIdx (ix3 b r c)
        ⟨List.idxOf (0 : Fin 3) gather_S16x256x256_S64x1_S64x256x256_12_0_n_n_0_1_1256256.startIndexMap,
          List.idxOf_lt_length_iff.2 (List.mem_singleton.mpr rfl)⟩ = ix2 b (0 : Fin 1) := by
      funext d; refine Fin.ext ?_
      match d with
      | ⟨0, _⟩ => rfl
      | ⟨1, _⟩ => rfl
    rw [hsi]
    rfl
  | ⟨1, _⟩ =>
    show gather_S16x256x256_S64x1_S64x256x256_12_0_n_n_0_1_1256256.start (ix3 b r c) idx 1
        + gather_S16x256x256_S64x1_S64x256x256_12_0_n_n_0_1_1256256.batchCoord (ix3 b r c) 1
        + gather_S16x256x256_S64x1_S64x256x256_12_0_n_n_0_1_1256256.offCoord (ix3 b r c) 1 = r.val
    rw [GatherDims.batchCoord_eq_zero _ _ _ List.not_mem_nil]
    unfold GatherDims.start
    rw [dif_neg (show ¬ (1 : Fin 3) ∈ gather_S16x256x256_S64x1_S64x256x256_12_0_n_n_0_1_1256256.startIndexMap by decide)]
    unfold GatherDims.offCoord
    rw [dif_pos (show (1 : Fin 3) ∈ gather_S16x256x256_S64x1_S64x256x256_12_0_n_n_0_1_1256256.sKept by decide)]
    simp only [Nat.add_zero, Nat.zero_add]
    rfl
  | ⟨2, _⟩ =>
    show gather_S16x256x256_S64x1_S64x256x256_12_0_n_n_0_1_1256256.start (ix3 b r c) idx 2
        + gather_S16x256x256_S64x1_S64x256x256_12_0_n_n_0_1_1256256.batchCoord (ix3 b r c) 2
        + gather_S16x256x256_S64x1_S64x256x256_12_0_n_n_0_1_1256256.offCoord (ix3 b r c) 2 = c.val
    rw [GatherDims.batchCoord_eq_zero _ _ _ List.not_mem_nil]
    unfold GatherDims.start
    rw [dif_neg (show ¬ (2 : Fin 3) ∈ gather_S16x256x256_S64x1_S64x256x256_12_0_n_n_0_1_1256256.startIndexMap by decide)]
    unfold GatherDims.offCoord
    rw [dif_pos (show (2 : Fin 3) ∈ gather_S16x256x256_S64x1_S64x256x256_12_0_n_n_0_1_1256256.sKept by decide)]
    simp only [Nat.add_zero, Nat.zero_add]
    rfl

/-! ## The integer words -/

/-- A signed "less than zero" comparison gives the bit 1 exactly when the word, read signed, is negative. -/
theorem cmpi_slt_zero_iff (p : BitVec 32) : IntOp.cmpi .slt p 0#32 = 1#1 ↔ p.toInt < 0 := by
  have h0 : (0#32 : BitVec 32).toInt = 0 := BitVec.toInt_zero
  unfold IntOp.cmpi
  show BitVec.ofBool (p.slt 0#32) = 1#1 ↔ _
  by_cases h : p.toInt < 0
  · have hs : p.slt 0#32 = true := BitVec.slt_iff_toInt_lt.2 (by rw [h0]; exact h)
    rw [hs]
    exact ⟨fun _ => h, fun _ => rfl⟩
  · have hs : p.slt 0#32 = false := by
      cases hb : p.slt 0#32 with
      | false => rfl
      | true => exact absurd (by have := BitVec.slt_iff_toInt_lt.1 hb; rw [h0] at this; exact this) h
    rw [hs]
    exact ⟨fun hc => absurd hc (by decide), fun hc => absurd hc h⟩

/-- The signed maximum with zero, read signed, is the larger of the word's signed value and 0. -/
theorem toInt_maxsi_zero (p : BitVec 32) : (IntOp.maxsi 0#32 p).toInt = max p.toInt 0 := by
  have h0 : (0#32 : BitVec 32).toInt = 0 := BitVec.toInt_zero
  unfold IntOp.maxsi
  by_cases h : p.toInt < 0
  · have hs : p.slt 0#32 = true := BitVec.slt_iff_toInt_lt.2 (by rw [h0]; exact h)
    rw [if_pos hs, h0]; omega
  · have hs : ¬ p.slt 0#32 = true := fun hb => h (by have := BitVec.slt_iff_toInt_lt.1 hb; rw [h0] at this; exact this)
    rw [if_neg hs]; omega

/-- A word that is a signed maximum with zero is never negative, so the wrap of a negative index (add 16 when
    below zero) leaves it alone. -/
theorem wrap_maxsi_zero (p : BitVec 32) :
    Scalar.select (IntOp.cmpi .slt (IntOp.maxsi 0#32 p) 0#32) (IntOp.addi (IntOp.maxsi 0#32 p) 16#32) (IntOp.maxsi 0#32 p)
      = IntOp.maxsi 0#32 p := by
  have hn : ¬ IntOp.cmpi .slt (IntOp.maxsi 0#32 p) 0#32 = 1#1 := fun hc => by
    have := (cmpi_slt_zero_iff _).1 hc
    rw [toInt_maxsi_zero] at this; omega
  rw [eq_zero_of_ne_one hn, select_zero]

/-- The start index the lookup uses — the clipped id, read signed and clamped to 15 — is the matrix the id selects. -/
theorem clamp_maxsi_zero (p : BitVec 32) : min (IntOp.maxsi 0#32 p).toInt.toNat 15 = (Route.lang p).val := by
  rw [toInt_maxsi_zero]; rfl

/-! ## The index functions of the reference's reads, by coordinates -/

open Cert.ReferenceIdeal.Read in
theorem idx_mask (b : Fin 64) (s : Fin 4096) (e : Fin 256) :
    idx_main_v0 (idx_main_v12 (idx_main_call1_v0 (ix3 b s e))) = ix2 b (0 : Fin 1) := by
  funext a
  match a with
  | ⟨0, _⟩ => exact Fin.ext (Nat.div_one _)
  | ⟨1, _⟩ => rfl

open Cert.ReferenceIdeal.Read in
theorem idx_start (b : Fin 64) : idx_main_v0 (idx_main_v9 (ix2 b (0 : Fin 1))) = ix2 b (0 : Fin 1) := by
  funext a
  match a with
  | ⟨0, _⟩ => exact Fin.ext (Nat.div_one _)
  | ⟨1, _⟩ => rfl

open Cert.ReferenceIdeal.Read in
theorem lidx_ix3 (b : Fin 64) (s : Fin 4096) (e k : Fin 256) : lidx_main_v11 (ix3 b s e) k = ix3 b s k := by
  funext a
  match a with
  | ⟨0, _⟩ => rfl
  | ⟨1, _⟩ => rfl
  | ⟨2, _⟩ => rfl

open Cert.ReferenceIdeal.Read in
theorem ridx_ix3 (b : Fin 64) (s : Fin 4096) (e k : Fin 256) : ridx_main_v11 (ix3 b s e) k = ix3 b e k := by
  funext a
  match a with
  | ⟨0, _⟩ => rfl
  | ⟨1, _⟩ => rfl
  | ⟨2, _⟩ => rfl

/-! ## The reference's stages read at coordinates -/

open Cert.ReferenceIdeal.Read in
/-- The pass-through mask at (b, s, e) is the comparison of sample b's id with zero. -/
theorem mask_apply (x2 : (⟨S64x1, .i32⟩ : BufTy).Contents (Elt Ideal)) (b : Fin 64) (s : Fin 4096) (e : Fin 256) :
    val_main_call1_v0 (F := Ideal) x2 (ix3 b s e) = IntOp.cmpi .slt (Route.idOf x2 b) 0#32 := by
  rw [val_main_call1_v0_apply, val_main_v12_apply, val_main_v2_apply, val_main_v0_apply, val_main_v1_apply,
    val_main_c_apply, idx_mask]
  rfl

open Cert.ReferenceIdeal.Read in
/-- The start index of sample b is its id clipped below at zero. -/
theorem start_apply (x2 : (⟨S64x1, .i32⟩ : BufTy).Contents (Elt Ideal)) (b : Fin 64) :
    val_main_v9 (F := Ideal) x2 (ix2 b (0 : Fin 1)) = IntOp.maxsi 0#32 (Route.idOf x2 b) := by
  have h3 : val_main_v3 (F := Ideal) x2 (idx_main_v9 (ix2 b (0 : Fin 1))) = IntOp.maxsi 0#32 (Route.idOf x2 b) := by
    rw [val_main_v3_apply, val_main_call0_v1_apply, val_main_call0_v0_apply, val_main_c_0_apply, val_main_v0_apply,
      idx_start]
    rfl
  rw [val_main_v9_apply, val_main_v8_apply, val_main_v5_apply, val_main_v7_apply, h3, val_main_v4_apply,
    val_main_c_1_apply, val_main_v6_apply, val_main_c_2_apply]
  exact wrap_maxsi_zero _

open Cert.ReferenceIdeal.Read in
/-- The gathered matrices at (b, r, c): the matrix sample b's id selects, at (r, c). -/
theorem gathered_apply (x1 : (⟨S16x256x256, .f32⟩ : BufTy).Contents (Elt Ideal))
    (x2 : (⟨S64x1, .i32⟩ : BufTy).Contents (Elt Ideal)) (b : Fin 64) (r c : Fin 256) :
    val_main_v10 (F := Ideal) x1 x2 (ix3 b r c) = x1 (ix3 (Route.lang (Route.idOf x2 b)) r c) := by
  unfold val_main_v10
  rw [gather_rows_apply]
  congr 1
  funext a
  match a with
  | ⟨0, _⟩ =>
    refine Fin.ext ?_
    show min (val_main_v9 (F := Ideal) x2 (ix2 b (0 : Fin 1))).toInt.toNat 15 = _
    rw [start_apply]
    exact clamp_maxsi_zero _
  | ⟨1, _⟩ => rfl
  | ⟨2, _⟩ => rfl

theorem ref_routed (x0 : (⟨S64x4096x256, .f32⟩ : BufTy).Contents (Elt Ideal)) (x1 : (⟨S16x256x256, .f32⟩ : BufTy).Contents (Elt Ideal))
    (x2 : (⟨S64x1, .i32⟩ : BufTy).Contents (Elt Ideal)) :
    Cert.ReferenceIdeal.Read.val_main_v13 (F := Ideal) x0 x1 x2 = Route.routed x0 x1 x2 := by
  funext i
  obtain ⟨b, s, e, rfl⟩ : ∃ (b : Fin 64) (s : Fin 4096) (e : Fin 256), i = ix3 b s e := ⟨i 0, i 1, i 2, eq_ix3 i⟩
  rw [Read.val_main_v13_apply, mask_apply, Read.val_main_v11_apply, Route.routed_ix3]
  unfold Route.routedAt
  by_cases h : (Route.idOf x2 b).toInt < 0
  · rw [(cmpi_slt_zero_iff _).2 h, select_one, if_pos h]
  · rw [eq_zero_of_ne_one (fun hc => h ((cmpi_slt_zero_iff _).1 hc)), select_zero, if_neg h]
    refine Finset.sum_congr rfl fun k _ => ?_
    rw [lidx_ix3, ridx_ix3, gathered_apply]

end Cert.ReferenceIdeal.RefValue

end
-- ==== Proof.lean ====
/-
  A per-sample routed projection: sample b of 64 carries an integer id; a negative id passes its 4096 × 256 block
  through unchanged, any other id multiplies every row of the block by the transpose of one of sixteen 256 × 256
  matrices, the id's own. The kernel runs one grid point per sample, reads the id from a prefetched table, lets the
  pipeline stage the matrix max(id, 0) and branches on the id's sign; the reference clamps the id, gathers the
  matrices, contracts, and selects.

  The claim is proved under the precondition that the float inputs are finite and every id is below 16: the matrix
  the kernel's pipeline stages, and the one the reference indexes, must be one of the sixteen.
  * The three frames: the two kernels' by a whole-body run per branch carried through the pipeline's launch (the
    word-level kernel's and the idealized one's are one text, generic in the float instance); the reference's is its
    run with the result dropped.
  * The idealization rewrote nothing.
  * Over the extended reals both programs end at one function of the argument arrays, the routed projection (Spec):
    the kernel's result block by block from what each branch stores (a sum over the contracted feature for the product
    into the zero accumulator, the change of format to bf16 being the identity), the reference's operation by
    operation; both are the same sum over the same 256 terms, so no law beyond the definitions joins them, and
    finiteness is never used.
-/
import proofs.«426945_j5952824672291_2_alg».proof.Defs
import proofs.«426945_j5952824672291_2_alg».proof.Proof.Gen.Kernel
import proofs.«426945_j5952824672291_2_alg».proof.Proof.Gen.KernelIdeal
import proofs.«426945_j5952824672291_2_alg».proof.Proof.Gen.ReferenceIdeal
import proofs.«426945_j5952824672291_2_alg».proof.Proof.Gen.ReferenceIdeal.Run
import proofs.«426945_j5952824672291_2_alg».proof.Proof.Gen.ReferenceIdeal.Read
import proofs.«426945_j5952824672291_2_alg».proof.Proof.Gen.Pre_finite_inputs
import proofs.«426945_j5952824672291_2_alg».proof.Proof.PreIds
import proofs.«426945_j5952824672291_2_alg».proof.Proof.BitsFrame
import proofs.«426945_j5952824672291_2_alg».proof.Proof.BitsOk
import proofs.«426945_j5952824672291_2_alg».proof.Proof.IdealValue
import proofs.«426945_j5952824672291_2_alg».proof.Proof.RefSide
import Idealize.ShloMosaic.Adequacy
import Idealize.ShloMosaic.Init

noncomputable section

namespace Cert.Proof

open Idealize.ShloMosaic Idealize.SL.Sem

/-- Under the precondition every id is below 16: at the word-level kernel's memory, -/
theorem ids_kernel (m : (ℓ : Loc Cert.Kernel.nD Cert.Kernel.τ Cert.Kernel.sig) → Buf (Elt Bits) ℓ) (h : Cert.Pre_Kernel m) :
    ∀ b : Fin 64, (Cert.Kernel.Frame.sampleId m b).toInt < 16 :=
  fun b => Cert.Pre_finite_inputs.Ids.ids_lt_of_pre _ _ _ (h 0) b

/-- and at the idealized kernel's. -/
theorem ids_ideal (m : (ℓ : Loc Cert.KernelIdeal.nD Cert.KernelIdeal.τ Cert.KernelIdeal.sig) → Buf (Elt Ideal) ℓ) (h : Cert.Pre_KernelIdeal m) :
    ∀ b : Fin 64, (Cert.KernelIdeal.Frame.sampleId m b).toInt < 16 :=
  fun b => Cert.Pre_finite_inputs.Ids.ids_lt_of_pre _ _ _ (h 0) b

theorem frame_k : Cert.frame_Kernel := fun m ρ h =>
  Cert.Kernel.Frame.frame m ρ (Cert.Kernel.Frame.ok_of_ids m (ids_kernel m h))

theorem frame_ki : Cert.frame_KernelIdeal := fun m ρ h =>
  Cert.KernelIdeal.Frame.frame m ρ (Cert.KernelIdeal.Frame.ok_of_ids m (ids_ideal m h))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the routed projection of the argument arrays. -/
theorem algebraic : Cert.algebraic_KernelIdeal_ReferenceIdeal := by
  intro m ρ m' ρ' hpre hagree
  refine ⟨fun _ => Route.routed (Cert.KernelIdeal.Frame.xs m) (Cert.KernelIdeal.Frame.ws m) (Cert.KernelIdeal.Frame.ids m),
    Cert.KernelIdeal.Frame.run_value m ρ (Cert.KernelIdeal.Frame.ok_of_ids m (ids_ideal m hpre)) (ids_ideal m hpre), ?_⟩
  refine (θ_run Cert.ReferenceIdeal.defs _ _).mono (fun _ h c => ⟨?_, (h c).2⟩)
    (Cert.ReferenceIdeal.Value.run (F := Ideal) m' ρ')
  obtain rfl : c = 0 := Subsingleton.elim _ _
  refine (h 0).1.trans ((Cert.ReferenceIdeal.Read.val_main_v13_eq _ _ _).trans
    ((Cert.ReferenceIdeal.RefValue.ref_routed _ _ _).trans ?_))
  rw [(hagree 0).1, (hagree 0).2.1, (hagree 0).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
